-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x128 : Shape := ⟨3, ![512, 128, 128]⟩
abbrev S512 : Shape := ⟨1, ![512]⟩
abbrev S_ : Shape := ⟨0, ![]⟩

class Facts : Prop where
  bcast_S_S512x128x128 : S_.BroadcastsInDim S512x128x128 (![] : Fin 0 → Fin S512x128x128.rank)
  reducesTo_S512x128x128_S_d0_1_2 : S512x128x128.ReducesTo [0, 1, 2] S_
  h_S_ : 0 < S_.numel

variable [Facts]

def fn {F : FTy → Type} [FloatOps F] (main_arg0 : FVec F S512x128x128 .f32) (main_arg1 : FVec F S512x128x128 .f32) (main_arg2 : FVec F S512x128x128 .f32) (main_arg3 : IVec S512 32) : IVec S_ 1 :=
  let main_v0 : FVec F S512x128x128 .f32 := Host.absf main_arg0
  let main_cst : FVec F S_ .f32 := constant S_ .f32 0x7F800000#32
  let main_v1 : FVec F S512x128x128 .f32 := broadcastInDim S512x128x128 ![] bcast_S_S512x128x128 main_cst
  let main_v2 : IVec S512x128x128 1 := cmpf .olt main_v0 main_v1
  let main_c : IVec S_ 1 := constantI S_ 1 1#1
  let main_v3 : IVec S_ 1 := (fun x v => Host.reduce IntOp.andi x v reducesTo_S512x128x128_S_d0_1_2 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S512x128x128 .f32 := Host.absf main_arg2
  let main_cst_2 : FVec F S_ .f32 := constant S_ .f32 0x7F800000#32
  let main_v10 : FVec F S512x128x128 .f32 := broadcastInDim S512x128x128 ![] bcast_S_S512x128x128 main_cst_2
  let main_v11 : IVec S512x128x128 1 := cmpf .olt main_v9 main_v10
  let main_c_3 : IVec S_ 1 := constantI S_ 1 1#1
  let main_v12 : IVec S_ 1 := (fun x v => Host.reduce IntOp.andi x v reducesTo_S512x128x128_S_d0_1_2 h_S_) main_v11 main_c_3
  let main_v13 : IVec S_ 1 := andi main_v8 main_v12
  main_v13
-- ==== Kernel.lean ====
abbrev S512x128x128 : Shape := ⟨3, ![512, 128, 128]⟩
abbrev S512 : Shape := ⟨1, ![512]⟩
abbrev S512x16384 : Shape := ⟨2, ![512, 16384]⟩
abbrev S512x1 : Shape := ⟨2, ![512, 1]⟩
abbrev S1x512 : Shape := ⟨2, ![1, 512]⟩
abbrev S1x1 : Shape := ⟨2, ![1, 1]⟩
abbrev S512x1024 : Shape := ⟨2, ![512, 1024]⟩
abbrev S512x512 : Shape := ⟨2, ![512, 512]⟩
abbrev S1 : Shape := ⟨1, ![1]⟩
abbrev S_ : Shape := ⟨0, ![]⟩

abbrev nBuf : Space → Nat
  | .hbm => 11
  | .vmem => 11
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S512x128x128, .f32⟩
  | .hbm, ⟨3, _⟩ => ⟨S512, .i32⟩
  | .hbm, ⟨4, _⟩ => ⟨S512x16384, .f32⟩
  | .hbm, ⟨5, _⟩ => ⟨S512x16384, .f32⟩
  | .hbm, ⟨6, _⟩ => ⟨S512x16384, .f32⟩
  | .hbm, ⟨7, _⟩ => ⟨S512x1, .i32⟩
  | .hbm, ⟨8, _⟩ => ⟨S1x512, .i32⟩
  | .hbm, ⟨9, _⟩ => ⟨S1x1, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .i32⟩
  | .local _ .vmem, ⟨7, _⟩ => ⟨S1x512, .i32⟩
  | .local _ .vmem, ⟨8, _⟩ => ⟨S1x1, .f32⟩
  | .local _ .vmem, ⟨9, _⟩ => ⟨S512x512, .f32⟩
  | .local _ .vmem, ⟨10, _⟩ => ⟨S512x512, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S512x128x128_S512x16384 : S512x128x128.ShapeCasts S512x16384
  shapeCasts_S512_S512x1 : S512.ShapeCasts S512x1
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  reduces_S512x1024_S512 : S512x1024.Reduces [1] S512
  shapeCasts_S512x1_S512x1 : S512x1.ShapeCasts S512x1
  broadcasts_S512x1_S512x512 : S512x1.Broadcasts S512x512
  transposes_S512x512_p1_0_S512x512 : S512x512.Transposes [1, 0] S512x512
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x16384.size a
  hwx0_0 : ∀ i : grid0.Coords, EltTy.bits .f32 = 32 ∨ (Rect.block (s := S512x16384) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x16384.size a
  hwx0_1 : ∀ i : grid0.Coords, EltTy.bits .f32 = 32 ∨ (Rect.block (s := S512x16384) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x16384.size a
  hwx0_2 : ∀ i : grid0.Coords, EltTy.bits .f32 = 32 ∨ (Rect.block (s := S512x16384) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .i32 = 32 ∨ (Rect.block (s := S512x1) S512x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .i32 = 32 ∨ (Rect.block (s := S1x512) S1x512.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x128x128 : Shape := ⟨3, ![512, 128, 128]⟩
abbrev S512 : Shape := ⟨1, ![512]⟩
abbrev S512x16384 : Shape := ⟨2, ![512, 16384]⟩
abbrev S_ : Shape := ⟨0, ![]⟩
abbrev S512x512 : Shape := ⟨2, ![512, 512]⟩
abbrev S512x1 : Shape := ⟨2, ![512, 1]⟩
abbrev S1x512 : Shape := ⟨2, ![1, 512]⟩

abbrev nBuf : Space → Nat
  | .hbm => 88
  | .vmem => 0
  | .smem => 0
  | _ => 0

abbrev bufTy : (tb : Table) → Fin (tcTables nBuf tb) → BufTy
  | .hbm, ⟨0, _⟩ => ⟨S512x128x128, .f32⟩
  | .hbm, ⟨1, _⟩ => ⟨S512x128x128, .f32⟩
  | .hbm, ⟨2, _⟩ => ⟨S512x128x128, .f32⟩
  | .hbm, ⟨3, _⟩ => ⟨S512, .i32⟩
  | .hbm, ⟨4, _⟩ => ⟨S512x16384, .f32⟩
  | .hbm, ⟨5, _⟩ => ⟨S512x16384, .f32⟩
  | .hbm, ⟨6, _⟩ => ⟨S_, .f32⟩
  | .hbm, ⟨7, _⟩ => ⟨S512, .f32⟩
  | .hbm, ⟨8, _⟩ => ⟨S512x512, .f32⟩
  | .hbm, ⟨9, _⟩ => ⟨S512x1, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x16384, .f32⟩
  | .hbm, ⟨22, _⟩ => ⟨S512x16384, .f32⟩
  | .hbm, ⟨23, _⟩ => ⟨S_, .f32⟩
  | .hbm, ⟨24, _⟩ => ⟨S512, .f32⟩
  | .hbm, ⟨25, _⟩ => ⟨S512x512, .f32⟩
  | .hbm, ⟨26, _⟩ => ⟨S512x1, .f32⟩
  | .hbm, ⟨27, _⟩ => ⟨S1x512, .f32⟩
  | .hbm, ⟨28, _⟩ => ⟨S512x512, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x16384, .f32⟩
  | .hbm, ⟨40, _⟩ => ⟨S512x16384, .f32⟩
  | .hbm, ⟨41, _⟩ => ⟨S_, .f32⟩
  | .hbm, ⟨42, _⟩ => ⟨S512, .f32⟩
  | .hbm, ⟨43, _⟩ => ⟨S512x512, .f32⟩
  | .hbm, ⟨44, _⟩ => ⟨S512x1, .f32⟩
  | .hbm, ⟨45, _⟩ => ⟨S1x512, .f32⟩
  | .hbm, ⟨46, _⟩ => ⟨S512x512, .f32⟩
  | .hbm, ⟨47, _⟩ => ⟨S512x512, .f32⟩
  | .hbm, ⟨48, _⟩ => ⟨S512x512, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x1, .i32⟩
  | .hbm, ⟨58, _⟩ => ⟨S1x512, .i32⟩
  | .hbm, ⟨59, _⟩ => ⟨S512x512, .i32⟩
  | .hbm, ⟨60, _⟩ => ⟨S512x512, .i32⟩
  | .hbm, ⟨61, _⟩ => ⟨S512x512, .i1⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S_, .i1⟩
  | .hbm, ⟨70, _⟩ => ⟨S512x512, .i1⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S_, .i1⟩
  | .hbm, ⟨78, _⟩ => ⟨S512x512, .i1⟩
  | .hbm, ⟨79, _⟩ => ⟨S512x512, .i1⟩
  | .hbm, ⟨80, _⟩ => ⟨S_, .f32⟩
  | .hbm, ⟨81, _⟩ => ⟨S_, .f32⟩
  | .hbm, ⟨82, _⟩ => ⟨S512x512, .f32⟩
  | .hbm, ⟨83, _⟩ => ⟨S512x512, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c : Ref sig .tc := ⟨.hbm, 69, rfl⟩
abbrev main_v54 : Ref sig .tc := ⟨.hbm, 70, rfl⟩
abbrev main_call1_v0 : Ref sig .tc := ⟨.hbm, 71, rfl⟩
abbrev main_call1_c : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_c_0 : Ref sig .tc := ⟨.hbm, 77, rfl⟩
abbrev main_call1_v5 : Ref sig .tc := ⟨.hbm, 78, rfl⟩
abbrev main_v55 : Ref sig .tc := ⟨.hbm, 79, rfl⟩
abbrev main_cst_10 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  shapeCasts_S512x128x128_S512x16384 : S512x128x128.ShapeCasts S512x16384
  reducesTo_S512x16384_S512_d1 : S512x16384.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  reducesTo_S512x512_S_d0_1 : S512x512.ReducesTo [0, 1] S_
  dot_S512x16384_S512x16384_S512x512_1_1_0_0_n_n_wf : DotDims.WF S512x16384 S512x16384 S512x512 [1] [1] [0] [0] [] []

variable [Facts₀]

def dot_S512x16384_S512x16384_S512x512_1_1_0_0_n_n : DotDims S512x16384 S512x16384 S512x512 where
  lhsContracting := [1]
  rhsContracting := [1]
  lhsNonContracting := [0]
  rhsNonContracting := [0]
  lhsBatch := []
  rhsBatch := []
  wf := dot_S512x16384_S512x16384_S512x512_1_1_0_0_n_n_wf

class Facts : Prop extends Facts₀ where

variable [Facts]
-- ==== Proof.LibCover.lean ====
/-
  A whole-buffer load after SEVERAL whole-buffer stores reads the newest store's payload.

  The library states this for a history of one store (`View.readCov_unit_zero`: an accumulator zeroed, then read back).
  A body that adds into the same accumulator several times in one run — load, add, store, load, add, store — reads back,
  at each later load, what the store just before it wrote, whatever the older stores were: the newest piece's rectangle
  is the whole buffer, so it covers every index the load reads.
-/
import Idealize.ShloMosaic.Lib.Pipeline.Value

noncomputable section

namespace Idealize.ShloMosaic.View

variable {Val : EltTy → Type} {S : Shape} {e : EltTy}

/-- A load through the whole-shape rectangle at zero offsets, after a list of stores whose NEWEST is through that same
    rectangle, reads the newest store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.KernelPieces.lean ====
/-
  What one grid step of the kernel leaves in its two carried accumulators and in its output buffer, as values.

  A step loads three [512,1024] tiles (one per field) and, for each in turn, adds the tile's gram block x·xᵀ into the
  [512,512] gram accumulator and the tile's row sums of squares (broadcast along each row) into the [512,512] row-sum
  accumulator: load, add, store, three times over for each accumulator. So after a step the gram accumulator holds
  ((acc + g₀) + g₁) + g₂ and the row-sum accumulator ((acc + s₀) + s₁) + s₂, each later load reading what the store just
  before it wrote. The three kinds of step differ only in where `acc` comes from and in the epilogue:

    • the first step stores zero into both accumulators first, so `acc` is the zero block;
    • a middle step starts from what the step before left;
    • the last step does the same and then forms the loss from the two accumulators it has just completed and
      the two label blocks, storing it into the [1,1] output.

  Each lemma reads the step's found stores back as the nested payload term; every buffer is loaded and stored whole.
-/
import proofs.«112074_j40226663694515_1_alg».proof.Proof.Gen.KernelIdeal.Frame
import Idealize.ShloMosaic.Lib.Pipeline.Value
import Idealize.ShloMosaic.Lib.Tactic
import proofs.«112074_j40226663694515_1_alg».proof.Proof.LibCover

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as the constant function. -/
theorem hz : (![0, 0] : Fin 2 → Nat) = fun _ => 0 := funext fun a => by fin_cases a <;> rfl

/-- First step, gram accumulator: zero, then the three tiles' gram blocks added in turn. -/
theorem gram_A (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : cond0_0 i) (hc1 : ¬cond0_1 i)
    (x0 x1 x2 : Vec F S512x1024 .f32) (x3 : Vec F S512x1 .i32) (x4 : Vec F S1x512 .i32) :
    sout0_A_0 c i a1 h1 a2 h2 a3 h3 a4 h4 a5 h5 a6 h6 a7 h7 a8 h8 hc0 hc1 x0 x1 x2 x3 x4 = k0_pay3 x2 (k0_pay12 x1 (k0_pay9 x0 k0_pay6)) := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- First step, row-sum accumulator: zero, then the three tiles' row sums of squares added in turn. -/
theorem sq_A (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : cond0_0 i) (hc1 : ¬cond0_1 i)
    (x0 x1 x2 : Vec F S512x1024 .f32) (x3 : Vec F S512x1 .i32) (x4 : Vec F S1x512 .i32) :
    sout0_A_1 c i a1 h1 a2 h2 a3 h3 a4 h4 a5 h5 a6 h6 a7 h7 a8 h8 hc0 hc1 x0 x1 x2 x3 x4 = k0_pay4 x2 (k0_pay1 (k0_pay13 x1) (k0_pay10 x0 k0_pay7)) := by
  unfold sout0_A_1
  rw [View.read_writes_eq_canon _ _ _ (scover0_A_1 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- Middle step, gram accumulator: what the step before left, then the three gram blocks added in turn. -/
theorem gram_B (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : ¬cond0_0 i) (hc1 : ¬cond0_1 i)
    (x0 x1 x2 : Vec F S512x1024 .f32) (x3 : Vec F S512x1 .i32) (x4 : Vec F S1x512 .i32) (xs0 xs1 : Vec F S512x512 .f32) :
    sout0_B_0 c i a1 h1 a2 h2 a3 h3 a4 h4 a5 h5 a6 h6 a7 h7 a8 h8 hc0 hc1 x0 x1 x2 x3 x4 xs0 xs1 = k0_pay3 x2 (k0_pay12 x1 (k0_pay9 x0 xs0)) := by
  unfold sout0_B_0
  rw [View.read_writes_eq_canon _ _ _ (scover0_B_0 c i a1 h1 a2 h2 a3 h3 a4 h4 a5 h5 a6 h6 a7 h7 a8 h8 hc0 hc1 x0 x1 x2 x3 x4 xs0 xs1)]
  unfold kernelRun0_B
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- Middle step, row-sum accumulator: what the step before left, then the three row sums added in turn. -/
theorem sq_B (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : ¬cond0_0 i) (hc1 : ¬cond0_1 i)
    (x0 x1 x2 : Vec F S512x1024 .f32) (x3 : Vec F S512x1 .i32) (x4 : Vec F S1x512 .i32) (xs0 xs1 : Vec F S512x512 .f32) :
    sout0_B_1 c i a1 h1 a2 h2 a3 h3 a4 h4 a5 h5 a6 h6 a7 h7 a8 h8 hc0 hc1 x0 x1 x2 x3 x4 xs0 xs1 = k0_pay4 x2 (k0_pay1 (k0_pay13 x1) (k0_pay10 x0 xs1)) := by
  unfold sout0_B_1
  rw [View.read_writes_eq_canon _ _ _ (scover0_B_1 c i a1 h1 a2 h2 a3 h3 a4 h4 a5 h5 a6 h6 a7 h7 a8 h8 hc0 hc1 x0 x1 x2 x3 x4 xs0 xs1)]
  unfold kernelRun0_B
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- Last step, gram accumulator: as a middle step. -/
theorem gram_C (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : ¬cond0_0 i) (hc1 : cond0_1 i)
    (x0 x1 x2 : Vec F S512x1024 .f32) (x3 : Vec F S512x1 .i32) (x4 : Vec F S1x512 .i32) (xs0 xs1 : Vec F S512x512 .f32) :
    sout0_C_0 c i a1 h1 a2 h2 a3 h3 a4 h4 a5 h5 a6 h6 a7 h7 a8 h8 hc0 hc1 x0 x1 x2 x3 x4 xs0 xs1 = k0_pay3 x2 (k0_pay12 x1 (k0_pay9 x0 xs0)) := by
  unfold sout0_C_0
  rw [View.read_writes_eq_canon _ _ _ (scover0_C_0 c i a1 h1 a2 h2 a3 h3 a4 h4 a5 h5 a6 h6 a7 h7 a8 h8 hc0 hc1 x0 x1 x2 x3 x4 xs0 xs1)]
  unfold kernelRun0_C
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- Last step, row-sum accumulator: as a middle step. -/
theorem sq_C (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : ¬cond0_0 i) (hc1 : cond0_1 i)
    (x0 x1 x2 : Vec F S512x1024 .f32) (x3 : Vec F S512x1 .i32) (x4 : Vec F S1x512 .i32) (xs0 xs1 : Vec F S512x512 .f32) :
    sout0_C_1 c i a1 h1 a2 h2 a3 h3 a4 h4 a5 h5 a6 h6 a7 h7 a8 h8 hc0 hc1 x0 x1 x2 x3 x4 xs0 xs1 = k0_pay4 x2 (k0_pay1 (k0_pay13 x1) (k0_pay10 x0 xs1)) := by
  unfold sout0_C_1
  rw [View.read_writes_eq_canon _ _ _ (scover0_C_1 c i a1 h1 a2 h2 a3 h3 a4 h4 a5 h5 a6 h6 a7 h7 a8 h8 hc0 hc1 x0 x1 x2 x3 x4 xs0 xs1)]
  unfold kernelRun0_C
  dsimp only
  sl_unfold_words
  rw [View.canon_cons_unit_zero (S := S512x512) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

/-- Last step, output: the loss formed from the completed row-sum accumulator (read twice: once as is, once transposed),
    the completed gram accumulator and the two label blocks. -/
theorem out_C (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1 .i32) (h4 : a4.IsWhole) (a5 : Memref sig .tc .vmem S1x512 .i32) (h5 : a5.IsWhole) (a6 : Memref sig .tc .vmem S1x1 .f32) (h6 : a6.IsWhole) (a7 : Memref sig .tc .vmem S512x512 .f32) (h7 : a7.IsWhole) (a8 : Memref sig .tc .vmem S512x512 .f32) (h8 : a8.IsWhole) (hc0 : ¬cond0_0 i) (hc1 : cond0_1 i)
    (x0 x1 x2 : Vec F S512x1024 .f32) (x3 : Vec F S512x1 .i32) (x4 : Vec F S1x512 .i32) (xs0 xs1 : Vec F S512x512 .f32) :
    out0_C_5 c i a1 h1 a2 h2 a3 h3 a4 h4 a5 h5 a6 h6 a7 h7 a8 h8 hc0 hc1 x0 x1 x2 x3 x4 xs0 xs1 = k0_pay5 (k0_pay4 x2 (k0_pay1 (k0_pay13 x1) (k0_pay10 x0 xs1))) (k0_pay4 x2 (k0_pay1 (k0_pay13 x1) (k0_pay10 x0 xs1))) (k0_pay3 x2 (k0_pay12 x1 (k0_pay9 x0 xs0))) x3 x4 := by
  unfold out0_C_5
  rw [View.read_writes_eq_canon _ _ _ (cover0_C_5 c i a1 h1 a2 h2 a3 h3 a4 h4 a5 h5 a6 h6 a7 h7 a8 h8 hc0 hc1 x0 x1 x2 x3 x4 xs0 xs1)]
  unfold kernelRun0_C
  dsimp only
  sl_unfold_words
  rw [View.canon_unit_zero (S := S1x1) hz]
  simp only [View.readCov_cons_unit_zero (S := S512x512) _ hz, View.readCov_unit_zero (S := S512x512) _ hz, View.readAt_eq_ld,
    h1.read_unread, h2.read_unread, h3.read_unread, h4.read_unread, h5.read_unread, h7.read_unread, h8.read_unread,
    View.ld_unit_zero (S := S512x1024) hz, View.ld_unit_zero (S := S512x512) hz, View.ld_unit_zero (S := S512x1) hz,
    View.ld_unit_zero (S := S1x512) hz]

end Cert.KernelIdeal.Pieces

end
-- ==== Proof.Spec.lean ====
/-
  The structural contrastive loss, as ONE function of three fields `e`, `a`, `c` (each flattened to [512, 16384]) and
  512 integer labels, in the two arrangements the two programs compute it.

  For a field `x`, `rowSq x i = ∑ₖ x[i,k]²` and `gram x i j = ∑ₖ x[i,k]·x[j,k]`, so that
  `(rowSq x i + rowSq x j − 2·gram x i j) / 16384` is the mean squared difference of rows `i` and `j`.

  • `distR`: the three fields' mean squared differences, ADDED (one quotient per field).
  • `distK`: the three fields' row sums added, their gram entries added, and ONE quotient taken of the combination.

  They agree on real-valued fields (distributing the quotient and the factor 2 over the three terms: Algebra.lean), not
  on all extended reals. On a distance `d` for the pair (i, j): if the labels agree the pair contributes `d`, otherwise
  the hinge `max (1 − d) 0`; only pairs with `i < j` count; the loss is the total over all pairs divided by the number
  of pairs, 512·511/2 = 130816.
-/
import Idealize.ShloMosaic.PureOps.Ideal
import Idealize.ShloMosaic.Lib.ValueIdx

noncomputable section

open scoped BigOperators

namespace Cert.Loss

open Idealize.ShloMosaic Idealize.ShloMosaic.ValueIdx

/-- A field flattened to 512 rows of 16384 features, over the extended reals. -/
abbrev Field := (⟨2, ![512, 16384]⟩ : Shape).Idx → EReal
/-- The 512 labels, as 32-bit words. -/
abbrev Labels := (⟨1, ![512]⟩ : Shape).Idx → BitVec 32

/-- The constants, by their f32 patterns: 2.0, 16384.0, 1.0, 130816.0. -/
abbrev two : EReal := Ideal.ofBits .f32 0x40000000#32
abbrev dflat : EReal := Ideal.ofBits .f32 0x46800000#32
abbrev one : EReal := Ideal.ofBits .f32 0x3F800000#32
abbrev npairs : EReal := Ideal.ofBits .f32 0x47FF8000#32

/-- Feature `k` of the `t`-th tile of 1024 features, as a feature of the whole row: `1024·t + k`. -/
def tileIdx (t : Fin 16) (k : Fin 1024) : Fin 16384 :=
  ⟨1024 * t.val + k.val, by have := t.isLt; have := k.isLt; omega⟩

/-- The sum of squares of row `i`. -/
def rowSq (x : Field) (i : Fin 512) : EReal := ∑ k : Fin 16384, x (ix2 i k) * x (ix2 i k)
/-- The inner product of rows `i` and `j`. -/
def gram (x : Field) (i j : Fin 512) : EReal := ∑ k : Fin 16384, x (ix2 i k) * x (ix2 j k)

/-- One field's mean squared difference of rows `i` and `j`. -/
def fieldDist (x : Field) (i j : Fin 512) : EReal :=
  Ideal.div ((rowSq x i + rowSq x j) - two * gram x i j) dflat

/-- The three fields' mean squared differences, added. -/
def distR (e a c : Field) (i j : Fin 512) : EReal := (fieldDist e i j + fieldDist a i j) + fieldDist c i j

/-- The three fields' row sums added and gram entries added, then one quotient. -/
def distK (e a c : Field) (i j : Fin 512) : EReal :=
  Ideal.div ((((rowSq e i + rowSq a i) + rowSq c i) + ((rowSq e j + rowSq a j) + rowSq c j))
    - two * ((gram e i j + gram a i j) + gram c i j)) dflat

/-- What the pair (i, j) at distance `d` contributes: nothing unless `i < j`; `d` for equal labels; else the hinge. -/
def perPair (t : Labels) (d : EReal) (i j : Fin 512) : EReal :=
  if i.val < j.val then (if t (ix1 i) = t (ix1 j) then d else max (one - d) 0) else 0

/-- The loss over a distance matrix: the total over all pairs, divided by the number of pairs. -/
def loss (t : Labels) (dist : Fin 512 → Fin 512 → EReal) : EReal :=
  Ideal.div (∑ i : Fin 512, ∑ j : Fin 512, perPair t (dist i j) i j) npairs

end Cert.Loss

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.Payloads.lean ====
/-
  The kernel body's payloads read at an index, at the ideal instance.

  Per grid step the kernel holds a [512, 1024] tile `x` of one field and two [512, 512] accumulators.
  • The gram step adds to the first accumulator the product `x · xᵀ`: entry `(i, j)` gains `∑ₖ x[i,k] · x[j,k]`
    (the narrowing of the tile to a 16-bit format is the identity at the ideal values, and the product is formed into
    a zero accumulator, which the sum drops).
  • The row-sum step adds to the second accumulator the tile's row sums of squares, kept as a column and broadcast
    along the rows: entry `(i, j)` gains `∑ₖ x[i,k]²`, whatever `j`.
  • Both accumulators start at zero.
  • The finalization reads the row-sum accumulator `s` at `(i, j)` and, transposed, at `(j, i)`, the gram accumulator
    `g` at `(i, j)`, forms `d = ((s[i,j] + s[j,i]) − 2·g[i,j]) / 16384`, keeps `d` where the two labels agree and the
    hinge `max (1 − d) 0` where they differ, keeps only the pairs with `i < j`, sums over `j` and then over `i`, and
    divides by the number of pairs.
-/
import proofs.«112074_j40226663694515_1_alg».proof.Proof.Gen.KernelIdeal.Skeleton
import proofs.«112074_j40226663694515_1_alg».proof.Proof.Spec
import proofs.«112074_j40226663694515_1_alg».proof.Proof.LibKeepdims
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.PayVal

open Cert.KernelIdeal Cert.KernelIdeal.Gen Idealize.ShloMosaic Idealize.ShloMosaic.ValueIdx Cert.Loss

/-! ## The gram step -/

/-! The tile product's dimension numbers contract axis 1 of both operands; the four facts below place each operand's
    index: rows from the result's coordinates, columns from the contraction coordinate. -/

/-- The left operand's row is the result's row. -/
theorem lhs_axis0 (i : S512x512.Idx) (q : dot_S512x1024_S512x1024_S512x512_1_1_0_0_n_n.contr.Idx) : (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
/-- The left operand's column is the contraction coordinate. -/
theorem lhs_axis1 (i : S512x512.Idx) (q : dot_S512x1024_S512x1024_S512x512_1_1_0_0_n_n.contr.Idx) : (dot_S512x1024_S512x1024_S512x512_1_1_0_0_n_n.lhsIdx i q 1).val = (q ⟨0, by decide⟩).val :=
  dot_S512x1024_S512x1024_S512x512_1_1_0_0_n_n.lhsIdx_val_of_single rfl i q
/-- The right operand's row is the result's column. -/
theorem rhs_axis0 (i : S512x512.Idx) (q : dot_S512x1024_S512x1024_S512x512_1_1_0_0_n_n.contr.Idx) : (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
/-- The right operand's column is the contraction coordinate. -/
theorem rhs_axis1 (i : S512x512.Idx) (q : dot_S512x1024_S512x1024_S512x512_1_1_0_0_n_n.contr.Idx) : (dot_S512x1024_S512x1024_S512x512_1_1_0_0_n_n.rhsIdx i q 1).val = (q ⟨0, by decide⟩).val :=
  dot_S512x1024_S512x1024_S512x512_1_1_0_0_n_n.rhsIdx_val_of_single rfl i q

/-- The product of a tile with its own transpose, formed into a zero accumulator: entry `(i, j)` is the inner product of
    rows `i` and `j`. -/
theorem matmul_self_apply (y : FVec Ideal S512x1024 .bf16) (i j : Fin 512) :
    (matmul dot_S512x1024_S512x1024_S512x512_1_1_0_0_n_n none y y (constant S512x512 .f32 0x00000000#32) : FVec Ideal S512x512 .f32) (ix2 i j)
      = ∑ k : Fin 1024, y (ix2 i k) * y (ix2 j k) := by
  show FloatOps.matmul dot_S512x1024_S512x1024_S512x512_1_1_0_0_n_n none y y (constant S512x512 .f32 0x00000000#32) (ix2 i j) = _
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 i j) ((contrEquiv1 dot_S512x1024_S512x1024_S512x512_1_1_0_0_n_n 1024 rfl rfl).symm k) = ix2 i k := funext fun a => Fin.ext (by
    match a with
    | ⟨0, _⟩ => exact lhs_axis0 _ _
    | ⟨1, _⟩ => exact (lhs_axis1 _ _).trans hk)
  have er : dot_S512x1024_S512x1024_S512x512_1_1_0_0_n_n.rhsIdx (ix2 i j) ((contrEquiv1 dot_S512x1024_S512x1024_S512x512_1_1_0_0_n_n 1024 rfl rfl).symm k) = ix2 j k := funext fun a => Fin.ext (by
    match a with
    | ⟨0, _⟩ => exact rhs_axis0 _ _
    | ⟨1, _⟩ => exact (rhs_axis1 _ _).trans hk)
  rw [el, er]

/-- One gram step over the operations: the accumulator plus the tile's product with its transpose, the tile narrowed
    first (the identity at the ideal values). -/
theorem gram_body (x : Vec Ideal S512x1024 .f32) (acc : Vec Ideal S512x512 .f32) (i j : Fin 512) :
    (addf acc (matmul dot_S512x1024_S512x1024_S512x512_1_1_0_0_n_n none (truncf .bf16 x bitsLt_bf16_f32) (truncf .bf16 x bitsLt_bf16_f32)
        (constant S512x512 .f32 0x00000000#32)) : FVec Ideal S512x512 .f32) (ix2 i j)
      = acc (ix2 i j) + ∑ k : Fin 1024, x (ix2 i k) * x (ix2 j k) := by
  show acc (ix2 i j) + (matmul dot_S512x1024_S512x1024_S512x512_1_1_0_0_n_n none (truncf .bf16 x bitsLt_bf16_f32) (truncf .bf16 x bitsLt_bf16_f32)
        (constant S512x512 .f32 0x00000000#32) : FVec Ideal S512x512 .f32) (ix2 i j) = _
  rw [matmul_self_apply]
  rfl

theorem gram_step9 (x : Vec Ideal S512x1024 .f32) (acc : Vec Ideal S512x512 .f32) (i j : Fin 512) :
    k0_pay9 x acc (ix2 i j) = acc (ix2 i j) + ∑ k : Fin 1024, x (ix2 i k) * x (ix2 j k) := by
  unfold k0_pay9 k0_pay8
  simp only [shapeCast_self]
  exact gram_body x acc i j

theorem gram_step12 (x : Vec Ideal S512x1024 .f32) (acc : Vec Ideal S512x512 .f32) (i j : Fin 512) :
    k0_pay12 x acc (ix2 i j) = acc (ix2 i j) + ∑ k : Fin 1024, x (ix2 i k) * x (ix2 j k) := by
  unfold k0_pay12 k0_pay11
  simp only [shapeCast_self]
  exact gram_body x acc i j

theorem gram_step3 (x : Vec Ideal S512x1024 .f32) (acc : Vec Ideal S512x512 .f32) (i j : Fin 512) :
    k0_pay3 x acc (ix2 i j) = acc (ix2 i j) + ∑ k : Fin 1024, x (ix2 i k) * x (ix2 j k) := by
  unfold k0_pay3 k0_pay2
  simp only [shapeCast_self]
  exact gram_body x acc i j

/-! ## The row-sum step -/

/-- A row sum of squares kept as a column and broadcast along the rows, added to the accumulator: entry `(i, j)` gains
    the sum of row `i`'s squares. -/
theorem sq_tail (r : FVec Ideal S512 .f32) (acc : Vec Ideal S512x512 .f32) (i j : Fin 512) :
    (addf acc (broadcastTo S512x512 (shapeCast S512x1 r shapeCasts_S512_S512x1) broadcasts_S512x1_S512x512)
        : FVec Ideal S512x512 .f32) (ix2 i j) = acc (ix2 i j) + r (ix1 i) := by
  show acc (ix2 i j) + broadcastTo S512x512 (shapeCast S512x1 r shapeCasts_S512_S512x1) broadcasts_S512x1_S512x512 (ix2 i j) = _
  rw [broadcastTo_a1_ab_apply, shapeCast_a_a1_apply]

/-- The lane sum of the tile's squares over its second axis, at row `i`. -/
theorem sq_rows (x : Vec Ideal S512x1024 .f32) (i : Fin 512) :
    (multiReduction (F := Ideal) .add [1] S512 (mulf x x : FVec Ideal S512x1024 .f32) 0x00000000#32 reduces_S512x1024_S512 (.inl rfl) rfl) (ix1 i)
      = ∑ k : Fin 1024, x (ix2 i k) * x (ix2 i k) := by
  exact multiReduction_add_rows (a := 512) (b := 1024) (mulf x x : FVec Ideal S512x1024 .f32) _ reduces_S512x1024_S512 _ _ i

theorem sq_step10 (x : Vec Ideal S512x1024 .f32) (acc : Vec Ideal S512x512 .f32) (i j : Fin 512) :
    k0_pay10 x acc (ix2 i j) = acc (ix2 i j) + ∑ k : Fin 1024, x (ix2 i k) * x (ix2 i k) := by
  unfold k0_pay10 k0_pay8
  simp only [shapeCast_self]
  rw [sq_tail, sq_rows]

theorem sq_step4 (x : Vec Ideal S512x1024 .f32) (acc : Vec Ideal S512x512 .f32) (i j : Fin 512) :
    k0_pay4 x acc (ix2 i j) = acc (ix2 i j) + ∑ k : Fin 1024, x (ix2 i k) * x (ix2 i k) := by
  unfold k0_pay4 k0_pay2
  simp only [shapeCast_self]
  rw [sq_tail, sq_rows]

theorem sq_step1 (x : Vec Ideal S512x1024 .f32) (acc : Vec Ideal S512x512 .f32) (i j : Fin 512) :
    k0_pay1 (k0_pay13 x) acc (ix2 i j) = acc (ix2 i j) + ∑ k : Fin 1024, x (ix2 i k) * x (ix2 i k) := by
  unfold k0_pay1 k0_pay13 k0_pay11
  simp only [shapeCast_self]
  rw [sq_tail, sq_rows]

/-! ## The accumulators' initial value -/

theorem zero6 (i j : Fin 512) : k0_pay6 (F := Ideal) (ix2 i j) = 0 := by
  unfold k0_pay6
  simp only [shapeCast_self]
  exact Ideal.ofBits_zero_f32

theorem zero7 (i j : Fin 512) : k0_pay7 (F := Ideal) (ix2 i j) = 0 := by
  unfold k0_pay7
  simp only [shapeCast_self]
  exact Ideal.ofBits_zero_f32

/-! ## The finalization -/

/-- A row `[1, b]` broadcast along the columns to `[a, b]` reads, at `(p, q)`, the row's entry of column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values the sum of a column `[a, 1]` over its first axis, read at the one index of `[1]`, is the sum of
    the column's entries. -/
theorem multiReduction_add_col {a : ℕ} {φ : FTy} (v : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (q : (⟨1, ![1]⟩ : Shape).Idx) :
    multiReduction .add [0] ⟨1, ![1]⟩ v acc h hφ hacc q = ∑ k : Fin a, v (ix2 k (0 : Fin 1)) :=
  (Ideal.multiReduction_add_single v acc h hφ hacc q).trans
    (Finset.sum_congr rfl fun k _ => congrArg v (funext fun ax => Fin.ext (by
      match ax with
      | ⟨0, _⟩ => rfl
      | ⟨1, h1⟩ => exact Nat.lt_one_iff.mp (show (h.lift q k ⟨1, h1⟩).val < 1 from (h.lift q k ⟨1, h1⟩).isLt))))

/-- The mean squared difference of rows `i` and `j` from the two accumulators: the row-sum accumulator read at `(i, j)`
    and, transposed, at `(j, i)`; twice the gram entry taken off; the whole divided by the feature count. -/
theorem dist_apply (s s' g : Vec Ideal S512x512 .f32) (i j : Fin 512) :
    (divf (subf (addf s (transpose S512x512 [1, 0] s' transposes_S512x512_p1_0_S512x512))
        (mulf (broadcast S512x512 (Scalar.ofBits .f32 0x40000000#32)) g))
      (broadcast S512x512 (Scalar.ofBits .f32 0x46800000#32)) : FVec Ideal S512x512 .f32) (ix2 i j)
      = Ideal.div ((s (ix2 i j) + s' (ix2 j i)) - two * g (ix2 i j)) dflat := by
  have ht : transpose S512x512 [1, 0] s' transposes_S512x512_p1_0_S512x512 (ix2 i j) = s' (ix2 j i) :=
    transpose_ix2_apply (a := 512) (b := 512) s' _ i j
  show Ideal.div ((s (ix2 i j) + transpose S512x512 [1, 0] s' transposes_S512x512_p1_0_S512x512 (ix2 i j))
    - two * g (ix2 i j)) dflat = _
  rw [ht]

/-- The strict upper triangle: the row coordinate compared (signed) with the column coordinate, both below 512, is the
    bit `1` exactly when `i < j`. -/
theorem upper_apply (i j : Fin 512) :
    (cmpi .slt (iota .tc S512x512 32 [0] iota_S512x512_d0_w32) (iota .tc S512x512 32 [1] iota_S512x512_d1_w32)
        : IVec S512x512 1) (ix2 i j) = if i.val < j.val then 1#1 else 0#1 := by
  show IntOp.cmpi .slt (iota .tc S512x512 32 [0] iota_S512x512_d0_w32 (ix2 i j))
    (iota .tc S512x512 32 [1] iota_S512x512_d1_w32 (ix2 i j)) = _
  rw [iota_single_apply, iota_single_apply]
  show IntOp.cmpi .slt (BitVec.ofNat 32 i.val) (BitVec.ofNat 32 j.val) = _
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  have key := StableHlo.Predicate.slt_iff_toNat (a := BitVec.ofNat 32 i.val) (b := BitVec.ofNat 32 j.val)
    (by rw [hi]; have := i.isLt; omega) (by rw [hj]; have := j.isLt; omega)
  rw [hi, hj] at key
  split
  · next hlt => exact key.mpr hlt
  · next hge => exact eq_zero_of_ne_one fun h => hge (key.mp h)

/-- The two label blocks compared at `(i, j)`: the column block broadcast along the rows reads row `i`'s label, the row
    block broadcast along the columns reads column `j`'s. -/
theorem labels_apply (tr : Vec Ideal S512x1 .i32) (tc : Vec Ideal S1x512 .i32) (i j : Fin 512) :
    (cmpi .eq (broadcastTo S512x512 tr broadcasts_S512x1_S512x512) (broadcastTo S512x512 tc broadcasts_S1x512_S512x512)
        : IVec S512x512 1) (ix2 i j) = IntOp.cmpi .eq (tr (ix2 i (0 : Fin 1))) (tc (ix2 (0 : Fin 1) j)) := by
  have h1 : broadcastTo S512x512 tr broadcasts_S512x1_S512x512 (ix2 i j) = tr (ix2 i (0 : Fin 1)) :=
    broadcastTo_a1_ab_apply (a := 512) (b := 512) tr _ i j
  have h2 : broadcastTo S512x512 tc broadcasts_S1x512_S512x512 (ix2 i j) = tc (ix2 (0 : Fin 1) j) :=
    broadcastTo_1b_ab_apply (a := 512) (b := 512) tc _ i j
  show IntOp.cmpi .eq (broadcastTo S512x512 tr broadcasts_S512x1_S512x512 (ix2 i j))
    (broadcastTo S512x512 tc broadcasts_S1x512_S512x512 (ix2 i j)) = _
  rw [h1, h2]

/-- A select on an equality test of two words is the `if` on their equality. -/
theorem select_cmpi_eq {α : Type} {w : ℕ} (a b : BitVec w) (x y : α) :
    Scalar.select (IntOp.cmpi .eq a b) x y = if a = b then x else y := by
  unfold Scalar.select
  exact if_congr StableHlo.Predicate.cmpi_eq_iff rfl rfl

/-- What the pair `(i, j)` contributes, over any distance matrix `D`: nothing unless `i < j`; the distance where the two
    labels agree; the hinge `max (1 − d) 0` where they differ. -/
theorem pair_apply (D : FVec Ideal S512x512 .f32) (tr : Vec Ideal S512x1 .i32) (tc : Vec Ideal S1x512 .i32) (i j : Fin 512) :
    (select (cmpi .slt (iota .tc S512x512 32 [0] iota_S512x512_d0_w32) (iota .tc S512x512 32 [1] iota_S512x512_d1_w32))
        (select (cmpi .eq (broadcastTo S512x512 tr broadcasts_S512x1_S512x512) (broadcastTo S512x512 tc broadcasts_S1x512_S512x512))
          D
          (maximumf (subf (broadcast S512x512 (Scalar.ofBits .f32 0x3F800000#32)) D)
            (broadcast S512x512 (Scalar.ofBits .f32 0x00000000#32))))
        (broadcast S512x512 (Scalar.ofBits .f32 0x00000000#32)) : FVec Ideal S512x512 .f32) (ix2 i j)
      = if i.val < j.val then
          (if tr (ix2 i (0 : Fin 1)) = tc (ix2 (0 : Fin 1) j) then D (ix2 i j) else max (one - D (ix2 i j)) 0)
        else 0 := by
  show Scalar.select
      ((cmpi .slt (iota .tc S512x512 32 [0] iota_S512x512_d0_w32) (iota .tc S512x512 32 [1] iota_S512x512_d1_w32)
        : IVec S512x512 1) (ix2 i j))
      (Scalar.select
        ((cmpi .eq (broadcastTo S512x512 tr broadcasts_S512x1_S512x512) (broadcastTo S512x512 tc broadcasts_S1x512_S512x512)
          : IVec S512x512 1) (ix2 i j))
        (D (ix2 i j)) (max (one - D (ix2 i j)) (Ideal.ofBits .f32 0x00000000#32)))
      (Ideal.ofBits .f32 0x00000000#32) = _
  rw [upper_apply, labels_apply, select_cmpi_eq, Ideal.ofBits_zero_f32]
  split
  · exact select_one _ _
  · exact select_zero _ _

/-- The two sums and the final quotient, over any matrix `w` of pair contributions: the lane sum over the columns kept
    as a column, that column summed over the rows, and the total divided by the number of pairs. -/
theorem total_apply (w : FVec Ideal S512x512 .f32) (o : S1x1.Idx) :
    (divf (shapeCast S1x1
        (multiReduction (F := Ideal) .add [0] S1
          (shapeCast S512x1 (multiReduction (F := Ideal) .add [1] S512 w 0x00000000#32 reduces_S512x512_S512 (.inl rfl) rfl)
            shapeCasts_S512_S512x1)
          0x00000000#32 reduces_S512x1_S1 (.inl rfl) rfl)
        shapeCasts_S1_S1x1)
      (broadcast S1x1 (Scalar.ofBits .f32 0x47FF8000#32)) : FVec Ideal S1x1 .f32) o
      = Ideal.div (∑ i : Fin 512, ∑ j : Fin 512, w (ix2 i j)) npairs := by
  have hrow : ∀ i : Fin 512,
      (multiReduction (F := Ideal) .add [1] S512 w 0x00000000#32 reduces_S512x512_S512 (.inl rfl) rfl) (ix1 i)
        = ∑ j : Fin 512, w (ix2 i j) := fun i =>
    multiReduction_add_rows (a := 512) (b := 512) w _ reduces_S512x512_S512 _ _ i
  have hcol : ∀ q : S1.Idx,
      (multiReduction (F := Ideal) .add [0] S1
        (shapeCast S512x1 (multiReduction (F := Ideal) .add [1] S512 w 0x00000000#32 reduces_S512x512_S512 (.inl rfl) rfl)
          shapeCasts_S512_S512x1)
        0x00000000#32 reduces_S512x1_S1 (.inl rfl) rfl) q = ∑ i : Fin 512, ∑ j : Fin 512, w (ix2 i j) := fun q =>
    (multiReduction_add_col (a := 512) _ _ reduces_S512x1_S1 _ _ q).trans
      (Finset.sum_congr rfl fun i _ =>
        (shapeCast_a_a1_apply (a := 512) _ shapeCasts_S512_S512x1 i (0 : Fin 1)).trans (hrow i))
  exact congrArg (fun z => Ideal.div z npairs) (hcol _)

/-- The finalization: from the row-sum accumulator `s` (loaded twice), the gram accumulator `g` and the two label
    blocks, the total over all pairs `i < j` of the distance or its hinge, divided by the number of pairs. -/
theorem final_apply (s g : Vec Ideal S512x512 .f32) (tr : Vec Ideal S512x1 .i32) (tc : Vec Ideal S1x512 .i32) (o : S1x1.Idx) :
    k0_pay5 s s g tr tc o
      = Ideal.div (∑ i : Fin 512, ∑ j : Fin 512,
          (if i.val < j.val then
             (if tr (ix2 i (0 : Fin 1)) = tc (ix2 (0 : Fin 1) j) then
                Ideal.div ((s (ix2 i j) + s (ix2 j i)) - two * g (ix2 i j)) dflat
              else max (one - Ideal.div ((s (ix2 i j) + s (ix2 j i)) - two * g (ix2 i j)) dflat) 0)
           else 0)) npairs := by
  unfold k0_pay5
  simp only [shapeCast_self]
  refine (total_apply _ o).trans (congrArg (fun z => Ideal.div z npairs) ?_)
  refine Finset.sum_congr rfl fun i _ => Finset.sum_congr rfl fun j _ => ?_
  refine (pair_apply _ tr tc i j).trans ?_
  rw [dist_apply]

end Cert.KernelIdeal.PayVal

end
-- ==== Proof.Consts.lean ====
/-
  The two float constants whose VALUES the distance identity uses, as the extended reals their patterns denote at
  the ideal instance: the factor `2.0` on the gram term and the divisor `16384.0` (the flattened feature count
  128 · 128). Every other constant of the two programs (`1.0`, `130816.0`) appears as the same word on both sides
  and is never evaluated; `+0.0` is the library's `Ideal.ofBits_zero_f32`. The pattern `0x7F800000` (exponent all ones, zero
  mantissa) is `+∞`: the bound the finiteness precondition compares every `|x|` against.
-/
import Idealize.ShloMosaic.PureOps.Ideal

noncomputable section

namespace Cert.Loss.Consts

open Idealize.ShloMosaic

/-- `2.0` denotes the real `2`. -/
theorem ofBits_two : Ideal.ofBits .f32 0x40000000#32 = ((2 : ℝ) : EReal) := by
  simp [Ideal.ofBits, Ideal.ieee, -EReal.coe_mul]; norm_num

/-- `16384.0` denotes the real `16384`. -/
theorem ofBits_dflat : Ideal.ofBits .f32 0x46800000#32 = ((16384 : ℝ) : EReal) := by
  simp [Ideal.ofBits, Ideal.ieee, -EReal.coe_mul]; norm_num

/-- `0x7F800000` (sign 0, exponent all ones, mantissa 0) denotes `+∞`, the top of the extended reals. -/
theorem ofBits_inf : Ideal.ofBits .f32 0x7F800000#32 = (⊤ : EReal) := by
  simp [Ideal.ofBits, Ideal.ieee]

end Cert.Loss.Consts

end
-- ==== Proof.Algebra.lean ====
/-
  The algebra behind the two arrangements of the distance.

  * The 16384 features of a row are 16 tiles of 1024 features: `(t, k) ↦ 1024·t + k` is a bijection
    `Fin 16 × Fin 1024 → Fin 16384`, so a sum over tiles of sums within a tile is the sum over the row.
  * On real-valued fields every row sum of squares and every inner product of rows is (the coercion of) a real
    number. For reals `p, q, g` per field, with `D = 16384`,
      `((pₑ+pₐ+p_c) + (qₑ+qₐ+q_c) − 2·(gₑ+gₐ+g_c)) / D = (pₑ+qₑ−2gₑ)/D + (pₐ+qₐ−2gₐ)/D + (p_c+q_c−2g_c)/D`,
    which is distributivity in ℝ. (Over the extended reals it can fail: `⊤ − ⊤` terms do not distribute.)
  * Equal distance matrices give equal losses.
-/
import Mathlib.Data.EReal.Basic
import Mathlib.Data.EReal.Operations
import Mathlib.Data.Fintype.BigOperators
import Mathlib.Algebra.BigOperators.Fin
import Mathlib.Tactic.Ring
import Mathlib.Tactic.NormNum
import proofs.«112074_j40226663694515_1_alg».proof.Proof.Spec
import proofs.«112074_j40226663694515_1_alg».proof.Proof.Consts

noncomputable section

open scoped BigOperators

namespace Cert.Loss

open Idealize.ShloMosaic Idealize.ShloMosaic.ValueIdx

/-- `(t, k) ↦ 1024·t + k` is a bijection from 16 tiles × 1024 features onto the 16384 features: it is injective
(quotient and remainder by 1024 recover `t` and `k`) between finite sets of the same size. -/
theorem tileIdx_bijective : Function.Bijective (fun p : Fin 16 × Fin 1024 => tileIdx p.1 p.2) := by
  rw [Fintype.bijective_iff_injective_and_card]
  refine ⟨?_, by simp⟩
  rintro ⟨t, k⟩ ⟨t', k'⟩ h
  have h' : 1024 * t.val + k.val = 1024 * t'.val + k'.val := by
    have := congrArg Fin.val h
    simpa [tileIdx] using this
  have := t.isLt; have := k.isLt; have := t'.isLt; have := k'.isLt
  have h1 : t.val = t'.val := by omega
  have h2 : k.val = k'.val := by omega
  exact Prod.ext (Fin.ext h1) (Fin.ext h2)

/-- 16 tiles of 1024 features are the 16384 features, in any commutative monoid. -/
theorem sum_tiles {M : Type*} [AddCommMonoid M] (f : Fin 16384 → M) :
    ∑ t : Fin 16, ∑ k : Fin 1024, f (tileIdx t k) = ∑ K : Fin 16384, f K := by
  rw [← Fintype.sum_prod_type' (fun t k => f (tileIdx t k))]
  exact Fintype.sum_bijective _ tileIdx_bijective _ _ (fun _ => rfl)

/-- The coercion ℝ → extended reals commutes with finite sums (it is additive on reals). -/
theorem coe_sum_real {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The sum of squares of a row of a real-valued field is a real number. -/
theorem rowSq_real (x : Field) (r : (⟨2, ![512, 16384]⟩ : Shape).Idx → ℝ) (hx : ∀ idx, x idx = (r idx : EReal))
    (i : Fin 512) : rowSq x i = ((∑ k : Fin 16384, r (ix2 i k) * r (ix2 i k) : ℝ) : EReal) := by
  unfold rowSq
  rw [coe_sum_real]
  refine Finset.sum_congr rfl (fun k _ => ?_)
  rw [hx, EReal.coe_mul]

/-- The inner product of two rows of a real-valued field is a real number. -/
theorem gram_real (x : Field) (r : (⟨2, ![512, 16384]⟩ : Shape).Idx → ℝ) (hx : ∀ idx, x idx = (r idx : EReal))
    (i j : Fin 512) : gram x i j = ((∑ k : Fin 16384, r (ix2 i k) * r (ix2 j k) : ℝ) : EReal) := by
  unfold gram
  rw [coe_sum_real]
  refine Finset.sum_congr rfl (fun k _ => ?_)
  rw [hx, hx, EReal.coe_mul]

/-- The identity on reals: one quotient of the combined sums is the sum of the three quotients. With the factor 2
and the divisor 16384 real and the divisor nonzero, a quotient is a product by `1/16384`, all coercions move
outward, and what remains is distributivity in ℝ. -/
theorem dist_real (pe qe ge pa qa ga pc qc gc : ℝ) :
    Ideal.div (((((pe : EReal) + (pa : EReal)) + (pc : EReal)) + (((qe : EReal) + (qa : EReal)) + (qc : EReal)))
        - two * (((ge : EReal) + (ga : EReal)) + (gc : EReal))) dflat
      = (Ideal.div (((pe : EReal) + (qe : EReal)) - two * (ge : EReal)) dflat
          + Ideal.div (((pa : EReal) + (qa : EReal)) - two * (ga : EReal)) dflat)
        + Ideal.div (((pc : EReal) + (qc : EReal)) - two * (gc : EReal)) dflat := by
  have h2 : two = ((2 : ℝ) : EReal) := Consts.ofBits_two
  have hd : dflat = ((16384 : ℝ) : EReal) := Consts.ofBits_dflat
  rw [h2, hd]
  simp only [Ideal.div_coe (by norm_num : (16384 : ℝ) ≠ 0)]
  simp only [← EReal.coe_add, ← EReal.coe_mul, ← EReal.coe_sub]
  congr 1
  ring

/-- On real-valued fields the one-quotient distance is the sum of the three per-field quotients. -/
theorem distK_eq_distR (e a c : Field) (he : ∀ idx, ∃ r : ℝ, e idx = (r : EReal))
    (ha : ∀ idx, ∃ r : ℝ, a idx = (r : EReal)) (hc : ∀ idx, ∃ r : ℝ, c idx = (r : EReal)) (i j : Fin 512) :
    distK e a c i j = distR e a c i j := by
  choose re hre using he
  choose ra hra using ha
  choose rc hrc using hc
  unfold distK distR fieldDist
  rw [rowSq_real e re hre i, rowSq_real e re hre j, gram_real e re hre i j,
    rowSq_real a ra hra i, rowSq_real a ra hra j, gram_real a ra hra i j,
    rowSq_real c rc hrc i, rowSq_real c rc hrc j, gram_real c rc hrc i j]
  exact dist_real _ _ _ _ _ _ _ _ _

/-- Equal distance matrices give equal losses. -/
theorem lossK_eq_lossR (t : Labels) (e a c : Field) (he : ∀ idx, ∃ r : ℝ, e idx = (r : EReal))
    (ha : ∀ idx, ∃ r : ℝ, a idx = (r : EReal)) (hc : ∀ idx, ∃ r : ℝ, c idx = (r : EReal)) :
    loss t (distK e a c) = loss t (distR e a c) := by
  have h : distK e a c = distR e a c :=
    funext fun i => funext fun j => distK_eq_distR e a c he ha hc i j
  rw [h]

end Cert.Loss

end
-- ==== Proof.KernelFold.lean ====
/-
  The kernel's two accumulators after each grid step, and its output after the last.

  Step `n` sees, of each flattened field, the tile of features 1024·n … 1024·n + 1023 of every row. By induction on the
  step, after step `n` the gram accumulator at (i, j) is the sum over the steps s ≤ n of the three tiles' inner products
  of rows i and j, and the row-sum accumulator at (i, j) — the same along each row — is the sum over s ≤ n of the three
  tiles' sums of squares of row i. After the sixteenth step the tiles have covered every feature once, so the
  accumulators hold the three fields' gram entries added, and the three fields' row sums of squares added; the loss
  the last step forms from them is the specification's loss over the one-quotient distance.
-/
import proofs.«112074_j40226663694515_1_alg».proof.Proof.Gen.KernelIdeal.Frame
import proofs.«112074_j40226663694515_1_alg».proof.Proof.KernelPieces
import proofs.«112074_j40226663694515_1_alg».proof.Proof.Payloads
import proofs.«112074_j40226663694515_1_alg».proof.Proof.Spec
import proofs.«112074_j40226663694515_1_alg».proof.Proof.Algebra
import proofs.«112074_j40226663694515_1_alg».proof.Proof.LibKeepdims
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Pieces Cert.KernelIdeal.PayVal Cert.Loss

variable (m : (ℓ : Loc nD τ sig) → Buf (Elt Ideal) ℓ)

/-! ## The arrays the region finds, and the tiles a step sees -/

/-- The three flattened fields and the two label arrays, as the region finds them. -/
abbrev fld0 (c : Dev nD) : Vec Ideal S512x16384 .f32 := V m c main_v0
abbrev fld1 (c : Dev nD) : Vec Ideal S512x16384 .f32 := V m c main_v1
abbrev fld2 (c : Dev nD) : Vec Ideal S512x16384 .f32 := V m c main_v2
abbrev labCol (c : Dev nD) : Vec Ideal S512x1 .i32 := V m c main_v3
abbrev labRow (c : Dev nD) : Vec Ideal S1x512 .i32 := V m c main_v4

/-- The tiles step `t` loads. -/
abbrev tile0 (c : Dev nD) (t : Fin cfg0.N) : Vec Ideal S512x1024 .f32 := iblk m c 0 t
abbrev tile1 (c : Dev nD) (t : Fin cfg0.N) : Vec Ideal S512x1024 .f32 := iblk m c 1 t
abbrev tile2 (c : Dev nD) (t : Fin cfg0.N) : Vec Ideal S512x1024 .f32 := iblk m c 2 t

/-- A step, as one of the sixteen tiles. -/
def tileOf (t : Fin cfg0.N) : Fin 16 := ⟨t.val, lt_of_lt_of_eq t.isLt (show cfg0.N = 16 from N_0)⟩

/-! ## What each kind of step leaves in the accumulators -/

theorem accs_first (c : Dev nD) (t : Fin cfg0.N) (h0 : t.val % 16 = 0) (h1 : ¬t.val % 16 = 15) :
    (outsAt0 m c t.val t.isLt).2.1 = k0_pay3 (tile2 m c t) (k0_pay12 (tile1 m c t) (k0_pay9 (tile0 m c t) (k0_pay6 (F := Ideal))))
    ∧ (outsAt0 m c t.val t.isLt).2.2 = k0_pay4 (tile2 m c t) (k0_pay1 (k0_pay13 (tile1 m c t)) (k0_pay10 (tile0 m c t) (k0_pay7 (F := Ideal)))) := by
  rw [outsAt0_A m c t h0 h1]; dsimp only
  exact ⟨gram_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    sq_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

theorem accs_middle (c : Dev nD) (t : Fin cfg0.N) (h0 : ¬t.val % 16 = 0) (h1 : ¬t.val % 16 = 15) :
    (outsAt0 m c t.val t.isLt).2.1 = k0_pay3 (tile2 m c t) (k0_pay12 (tile1 m c t) (k0_pay9 (tile0 m c t) (outsAt0 m c (t.val - 1) (Nat.lt_of_le_of_lt (Nat.sub_le _ _) t.isLt)).2.1))
    ∧ (outsAt0 m c t.val t.isLt).2.2 = k0_pay4 (tile2 m c t) (k0_pay1 (k0_pay13 (tile1 m c t)) (k0_pay10 (tile0 m c t) (outsAt0 m c (t.val - 1) (Nat.lt_of_le_of_lt (Nat.sub_le _ _) t.isLt)).2.2)) := by
  rw [outsAt0_B m c t h0 h1]; dsimp only
  exact ⟨gram_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    sq_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

theorem accs_last (c : Dev nD) (t : Fin cfg0.N) (h0 : ¬t.val % 16 = 0) (h1 : t.val % 16 = 15) :
    (outsAt0 m c t.val t.isLt).2.1 = k0_pay3 (tile2 m c t) (k0_pay12 (tile1 m c t) (k0_pay9 (tile0 m c t) (outsAt0 m c (t.val - 1) (Nat.lt_of_le_of_lt (Nat.sub_le _ _) t.isLt)).2.1))
    ∧ (outsAt0 m c t.val t.isLt).2.2 = k0_pay4 (tile2 m c t) (k0_pay1 (k0_pay13 (tile1 m c t)) (k0_pay10 (tile0 m c t) (outsAt0 m c (t.val - 1) (Nat.lt_of_le_of_lt (Nat.sub_le _ _) t.isLt)).2.2))
    ∧ (outsAt0 m c t.val t.isLt).1 = k0_pay5 (k0_pay4 (tile2 m c t) (k0_pay1 (k0_pay13 (tile1 m c t)) (k0_pay10 (tile0 m c t) (outsAt0 m c (t.val - 1) (Nat.lt_of_le_of_lt (Nat.sub_le _ _) t.isLt)).2.2))) (k0_pay4 (tile2 m c t) (k0_pay1 (k0_pay13 (tile1 m c t)) (k0_pay10 (tile0 m c t) (outsAt0 m c (t.val - 1) (Nat.lt_of_le_of_lt (Nat.sub_le _ _) t.isLt)).2.2))) (k0_pay3 (tile2 m c t) (k0_pay12 (tile1 m c t) (k0_pay9 (tile0 m c t) (outsAt0 m c (t.val - 1) (Nat.lt_of_le_of_lt (Nat.sub_le _ _) t.isLt)).2.1))) (iblk m c 3 t) (iblk m c 4 t) := by
  rw [outsAt0_C m c t h0 h1]; dsimp only
  exact ⟨gram_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    sq_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-! ## Reading a tile; the arrays the host wrote before the region -/

/-- Every window's block index, over the grid: the fields' tiles move along the feature axis, the labels stay. -/
theorem win_idx0 : ∀ t : Fin cfg0.N, win0_0.index t 0 = 0 ∧ win0_0.index t 1 = t.val :=
  (by decide +kernel : ∀ t : Fin grid0.N, win0_0.index t 0 = 0 ∧ win0_0.index t 1 = t.val)
theorem win_idx1 : ∀ t : Fin cfg0.N, win0_1.index t 0 = 0 ∧ win0_1.index t 1 = t.val :=
  (by decide +kernel : ∀ t : Fin grid0.N, win0_1.index t 0 = 0 ∧ win0_1.index t 1 = t.val)
theorem win_idx2 : ∀ t : Fin cfg0.N, win0_2.index t 0 = 0 ∧ win0_2.index t 1 = t.val :=
  (by decide +kernel : ∀ t : Fin grid0.N, win0_2.index t 0 = 0 ∧ win0_2.index t 1 = t.val)
theorem win_idx3 : ∀ t : Fin cfg0.N, win0_3.index t 0 = 0 ∧ win0_3.index t 1 = 0 :=
  (by decide +kernel : ∀ t : Fin grid0.N, win0_3.index t 0 = 0 ∧ win0_3.index t 1 = 0)
theorem win_idx4 : ∀ t : Fin cfg0.N, win0_4.index t 0 = 0 ∧ win0_4.index t 1 = 0 :=
  (by decide +kernel : ∀ t : Fin grid0.N, win0_4.index t 0 = 0 ∧ win0_4.index t 1 = 0)

theorem tile0_apply (c : Dev nD) (t : Fin cfg0.N) (i : Fin 512) (k : Fin 1024) :
    tile0 m c t (ix2 i k) = fld0 m c (ix2 i (tileIdx (tileOf t) k)) := by
  have hi := win_idx0 t
  show iblk m c 0 t (ix2 i k) = _
  unfold iblk
  rw [View.read_apply]
  show V m c main_v0 _ = V m c main_v0 _
  congr 1
  funext a
  apply Fin.ext
  match a with
  | ⟨0, _⟩ => show win0_0.index t 0 * 512 + 1 * i.val = i.val; rw [hi.1]; omega
  | ⟨1, _⟩ => show win0_0.index t 1 * 1024 + 1 * k.val = 1024 * t.val + k.val; rw [hi.2]; omega

theorem tile1_apply (c : Dev nD) (t : Fin cfg0.N) (i : Fin 512) (k : Fin 1024) :
    tile1 m c t (ix2 i k) = fld1 m c (ix2 i (tileIdx (tileOf t) k)) := by
  have hi := win_idx1 t
  show iblk m c 1 t (ix2 i k) = _
  unfold iblk
  rw [View.read_apply]
  show V m c main_v1 _ = V m c main_v1 _
  congr 1
  funext a
  apply Fin.ext
  match a with
  | ⟨0, _⟩ => show win0_1.index t 0 * 512 + 1 * i.val = i.val; rw [hi.1]; omega
  | ⟨1, _⟩ => show win0_1.index t 1 * 1024 + 1 * k.val = 1024 * t.val + k.val; rw [hi.2]; omega

theorem tile2_apply (c : Dev nD) (t : Fin cfg0.N) (i : Fin 512) (k : Fin 1024) :
    tile2 m c t (ix2 i k) = fld2 m c (ix2 i (tileIdx (tileOf t) k)) := by
  have hi := win_idx2 t
  show iblk m c 2 t (ix2 i k) = _
  unfold iblk
  rw [View.read_apply]
  show V m c main_v2 _ = V m c main_v2 _
  congr 1
  funext a
  apply Fin.ext
  match a with
  | ⟨0, _⟩ => show win0_2.index t 0 * 512 + 1 * i.val = i.val; rw [hi.1]; omega
  | ⟨1, _⟩ => show win0_2.index t 1 * 1024 + 1 * k.val = 1024 * t.val + k.val; rw [hi.2]; omega

/-- The label blocks are the whole label arrays at every step. -/
theorem labCol_blk (c : Dev nD) (t : Fin cfg0.N) : (iblk m c 3 t : Vec Ideal S512x1 .i32) = labCol m c := by
  have hi := win_idx3 t
  funext j
  unfold iblk
  rw [View.read_apply]
  show V m c main_v3 _ = V m c main_v3 j
  congr 1
  funext a
  apply Fin.ext
  match a with
  | ⟨0, _⟩ => show win0_3.index t 0 * 512 + 1 * (j 0).val = (j 0).val; rw [hi.1]; omega
  | ⟨1, _⟩ => show win0_3.index t 1 * 1 + 1 * (j 1).val = (j 1).val; rw [hi.2]; omega

theorem labRow_blk (c : Dev nD) (t : Fin cfg0.N) : (iblk m c 4 t : Vec Ideal S1x512 .i32) = labRow m c := by
  have hi := win_idx4 t
  funext j
  unfold iblk
  rw [View.read_apply]
  show V m c main_v4 _ = V m c main_v4 j
  congr 1
  funext a
  apply Fin.ext
  match a with
  | ⟨0, _⟩ => show win0_4.index t 0 * 1 + 1 * (j 0).val = (j 0).val; rw [hi.1]; omega
  | ⟨1, _⟩ => show win0_4.index t 1 * 512 + 1 * (j 1).val = (j 1).val; rw [hi.2]; omega

theorem fld0_eq (c : Dev nD) :
    fld0 m c = shapeCast S512x16384 (m ((c : Thread nD τ).loc main_arg0)) Facts₀.shapeCasts_S512x128x128_S512x16384 := by
  show StableHlo.after hostOps0 (fun b => m (c, b)) (Proc.devRef .tc main_v0) = _
  after_results
  rfl

theorem fld1_eq (c : Dev nD) :
    fld1 m c = shapeCast S512x16384 (m ((c : Thread nD τ).loc main_arg1)) Facts₀.shapeCasts_S512x128x128_S512x16384 := by
  show StableHlo.after hostOps0 (fun b => m (c, b)) (Proc.devRef .tc main_v1) = _
  after_results
  rfl

theorem fld2_eq (c : Dev nD) :
    fld2 m c = shapeCast S512x16384 (m ((c : Thread nD τ).loc main_arg2)) Facts₀.shapeCasts_S512x128x128_S512x16384 := by
  show StableHlo.after hostOps0 (fun b => m (c, b)) (Proc.devRef .tc main_v2) = _
  after_results
  rfl

theorem labCol_eq (c : Dev nD) :
    labCol m c = shapeCast S512x1 (m ((c : Thread nD τ).loc main_arg3)) Facts₀.shapeCasts_S512_S512x1 := by
  show StableHlo.after hostOps0 (fun b => m (c, b)) (Proc.devRef .tc main_v3) = _
  after_results
  rfl

theorem labRow_eq (c : Dev nD) :
    labRow m c = shapeCast S1x512 (m ((c : Thread nD τ).loc main_arg3)) Facts₀.shapeCasts_S512_S1x512 := by
  show StableHlo.after hostOps0 (fun b => m (c, b)) (Proc.devRef .tc main_v4) = _
  after_results
  rfl

/-! ## The accumulators after each step -/

/-- The inner product of rows `i` and `j` of a tile (for `i = j`: the row's sum of squares). -/
def dotT (x : Vec Ideal S512x1024 .f32) (i j : Fin 512) : EReal := ∑ k : Fin 1024, x (ix2 i k) * x (ix2 j k)

/-- One step's three additions into the gram accumulator, at an entry. -/
theorem gram_acc_apply (x0 x1 x2 : Vec Ideal S512x1024 .f32) (acc : Vec Ideal S512x512 .f32) (i j : Fin 512) :
    k0_pay3 x2 (k0_pay12 x1 (k0_pay9 x0 acc)) (ix2 i j)
      = acc (ix2 i j) + ((dotT x0 i j + dotT x1 i j) + dotT x2 i j) := by
  rw [gram_step3, gram_step12, gram_step9]
  unfold dotT
  simp only [add_assoc]

/-- One step's three additions into the row-sum accumulator, at an entry: the same along the row. -/
theorem sq_acc_apply (x0 x1 x2 : Vec Ideal S512x1024 .f32) (acc : Vec Ideal S512x512 .f32) (i j : Fin 512) :
    k0_pay4 x2 (k0_pay1 (k0_pay13 x1) (k0_pay10 x0 acc)) (ix2 i j)
      = acc (ix2 i j) + ((dotT x0 i i + dotT x1 i i) + dotT x2 i i) := by
  rw [sq_step4, sq_step1, sq_step10]
  unfold dotT
  simp only [add_assoc]

/-- What step `n` adds at (i, j): the three tiles' inner products of rows i and j (nothing past the grid). -/
def stepAdd (c : Dev nD) (n : ℕ) (i j : Fin 512) : EReal :=
  if h : n < cfg0.N then
    (dotT (tile0 m c ⟨n, h⟩) i j + dotT (tile1 m c ⟨n, h⟩) i j) + dotT (tile2 m c ⟨n, h⟩) i j
  else 0

theorem stepAdd_of_lt (c : Dev nD) (n : ℕ) (h : n < cfg0.N) (i j : Fin 512) :
    stepAdd m c n i j = (dotT (tile0 m c ⟨n, h⟩) i j + dotT (tile1 m c ⟨n, h⟩) i j) + dotT (tile2 m c ⟨n, h⟩) i j := by
  unfold stepAdd; rw [dif_pos h]

/-- After step `n` the gram accumulator at (i, j) is the sum of the steps' additions so far, and the row-sum
    accumulator at (i, j) the sum of their additions at (i, i). By induction on the step. -/
theorem accs_eq (c : Dev nD) : ∀ (n : ℕ) (h : n < cfg0.N) (i j : Fin 512),
    (outsAt0 m c n h).2.1 (ix2 i j) = ∑ s ∈ Finset.range (n + 1), stepAdd m c s i j
    ∧ (outsAt0 m c n h).2.2 (ix2 i j) = ∑ s ∈ Finset.range (n + 1), stepAdd m c s i i
  | 0, h, i, j => by
    obtain ⟨hg, hs⟩ := accs_first m c ⟨0, h⟩ rfl (by show ¬(0 % 16 = 15); decide)
    have eg : (outsAt0 m c 0 h).2.1 (ix2 i j) = _ := (congrFun hg (ix2 i j)).trans (gram_acc_apply _ _ _ _ i j)
    have es : (outsAt0 m c 0 h).2.2 (ix2 i j) = _ := (congrFun hs (ix2 i j)).trans (sq_acc_apply _ _ _ _ i j)
    refine ⟨?_, ?_⟩
    · rw [eg, zero6, zero_add, Finset.sum_range_one, stepAdd_of_lt m c 0 h]
    · rw [es, zero7, zero_add, Finset.sum_range_one, stepAdd_of_lt m c 0 h]
  | n + 1, h, i, j => by
    have hN : cfg0.N = 16 := N_0
    have h0 : ¬(⟨n + 1, h⟩ : Fin cfg0.N).val % 16 = 0 := by dsimp only; omega
    obtain ⟨ihg, ihs⟩ := accs_eq c n (Nat.lt_of_succ_lt h) i j
    have key : (outsAt0 m c (n + 1) h).2.1 (ix2 i j)
          = (outsAt0 m c n (Nat.lt_of_succ_lt h)).2.1 (ix2 i j) + stepAdd m c (n + 1) i j
        ∧ (outsAt0 m c (n + 1) h).2.2 (ix2 i j)
          = (outsAt0 m c n (Nat.lt_of_succ_lt h)).2.2 (ix2 i j) + stepAdd m c (n + 1) i i := by
      rw [stepAdd_of_lt m c (n + 1) h, stepAdd_of_lt m c (n + 1) h]
      by_cases h1 : (⟨n + 1, h⟩ : Fin cfg0.N).val % 16 = 15
      · obtain ⟨hg, hs, -⟩ := accs_last m c ⟨n + 1, h⟩ h0 h1
        exact ⟨(congrFun hg (ix2 i j)).trans (gram_acc_apply _ _ _ _ i j),
          (congrFun hs (ix2 i j)).trans (sq_acc_apply _ _ _ _ i j)⟩
      · obtain ⟨hg, hs⟩ := accs_middle m c ⟨n + 1, h⟩ h0 h1
        exact ⟨(congrFun hg (ix2 i j)).trans (gram_acc_apply _ _ _ _ i j),
          (congrFun hs (ix2 i j)).trans (sq_acc_apply _ _ _ _ i j)⟩
    rw [key.1, key.2, ihg, ihs, Finset.sum_range_succ _ (n + 1), Finset.sum_range_succ _ (n + 1)]
    exact ⟨rfl, rfl⟩

/-! ## After the last step -/

/-- The label vector cast to a row `[1, a]` reads, at `(u, p)`, the vector at `p`. -/
theorem shapeCast_a_1a_apply {α : Type} {a : ℕ} (x : (⟨1, ![a]⟩ : Shape).Idx → α)
    (h : (⟨1, ![a]⟩ : Shape).ShapeCasts ⟨2, ![1, a]⟩) (u : Fin 1) (p : Fin a) :
    shapeCast ⟨2, ![1, a]⟩ x h (ix2 u p) = x (ix1 p) :=
  shapeCast_apply x h _ _ (by
    have hu : u.val = 0 := by omega
    rw [Shape.rowMajor_val_two, Shape.rowMajor_val_one]
    show p.val = u.val * a + p.val
    rw [hu, Nat.zero_mul, Nat.zero_add])

theorem tileOf_mk (t : Fin 16) (h : t.val < cfg0.N) : tileOf ⟨t.val, h⟩ = t := Fin.ext rfl

/-- All sixteen steps' additions at (i, j): the tiles cover every feature once, so they are the three fields' gram
    entries, added. -/
theorem total_add (c : Dev nD) (i j : Fin 512) :
    ∑ s ∈ Finset.range 16, stepAdd m c s i j
      = (gram (fld0 m c) i j + gram (fld1 m c) i j) + gram (fld2 m c) i j := by
  have hN : cfg0.N = 16 := N_0
  rw [← Fin.sum_univ_eq_sum_range (fun s => stepAdd m c s i j) 16]
  have e : ∀ t : Fin 16, stepAdd m c t.val i j
      = (∑ k : Fin 1024, fld0 m c (ix2 i (tileIdx t k)) * fld0 m c (ix2 j (tileIdx t k))
        + ∑ k : Fin 1024, fld1 m c (ix2 i (tileIdx t k)) * fld1 m c (ix2 j (tileIdx t k)))
        + ∑ k : Fin 1024, fld2 m c (ix2 i (tileIdx t k)) * fld2 m c (ix2 j (tileIdx t k)) := by
    intro t
    have ht : t.val < cfg0.N := by rw [hN]; exact t.isLt
    rw [stepAdd_of_lt m c t.val ht]
    unfold dotT
    simp only [tile0_apply, tile1_apply, tile2_apply, tileOf_mk]
  simp only [e, Finset.sum_add_distrib]
  unfold gram
  rw [← sum_tiles (fun K => fld0 m c (ix2 i K) * fld0 m c (ix2 j K)),
    ← sum_tiles (fun K => fld1 m c (ix2 i K) * fld1 m c (ix2 j K)),
    ← sum_tiles (fun K => fld2 m c (ix2 i K) * fld2 m c (ix2 j K))]

/-- What the last step leaves in the output: the loss over the one-quotient distance of the three flattened fields. -/
theorem last_out (c : Dev nD) (h15 : 15 < cfg0.N) (o : S1x1.Idx) :
    (outsAt0 m c 15 h15).1 o
      = loss (m ((c : Thread nD τ).loc main_arg3)) (distK (fld0 m c) (fld1 m c) (fld2 m c)) := by
  have h0 : ¬(⟨15, h15⟩ : Fin cfg0.N).val % 16 = 0 := by show ¬(15 % 16 = 0); decide
  have h1 : (⟨15, h15⟩ : Fin cfg0.N).val % 16 = 15 := rfl
  obtain ⟨hg, hs, ho⟩ := accs_last m c ⟨15, h15⟩ h0 h1
  rw [show (outsAt0 m c 15 h15).1 = _ from ho, ← hs, ← hg, labCol_blk m c ⟨15, h15⟩, labRow_blk m c ⟨15, h15⟩, final_apply]
  unfold loss
  refine congrArg (fun x => Ideal.div x npairs) ?_
  refine Finset.sum_congr rfl fun i _ => Finset.sum_congr rfl fun j _ => ?_
  dsimp only
  rw [(accs_eq m c 15 h15 i j).1, (accs_eq m c 15 h15 i j).2, (accs_eq m c 15 h15 j i).2, total_add, total_add, total_add,
    labCol_eq, labRow_eq, shapeCast_a_a1_apply, shapeCast_a_1a_apply]
  rfl

end Cert.KernelIdeal.Fold

end
-- ==== Proof.KernelRun.lean ====
/-
  From the last grid point to the program's run. The program is five host reshapes, one pipelined region over a grid
  of 16 points, and one host reshape of the region's [1,1] result to a scalar. The output window's one block, index
  (0, 0) at every point, is stored by the body at point 15 only and written back only then. So if point 15 leaves `b`
  in the output's staging buffer: the one write-back writes `b` (block (0, 0) of a [1,1] array read through zero
  offsets is the array), that block covers the array's one index, the array ends at `b`, the reshape [1,1] → [] reads
  its entry (0, 0), and no operation writes an argument.
-/
import proofs.«112074_j40226663694515_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.KRun

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one write-back of the output window, at point 15, writes `b`: block (0, 0) of the [1,1] array read through
    zero offsets is the array. -/
theorem flushed_eq (b : Dev nD → Vec F S1x1 .f32)
    (hb : ∀ c, (outsAt0 m c 15 (by rw [show cfg0.N = 16 from N_0]; decide)).1 = b c)
    (c : Dev nD) (t : Fin cfg0.N) (hf : (cfg0.win 5).flush t = true) :
    (dats m 0 c).flushed 5 t = ((cfg0.win 5).blk t).view.read (Elt F) (b c : Buf (Elt F) ((c : Thread nD τ).loc main_v5)) := by
  have hN : cfg0.N = 16 := N_0
  have h15 : t.val = 15 := by have := (flush0_5 t).mp hf; have := t.isLt; omega
  obtain rfl : t = t0_15 := Fin.ext h15
  show (cfg0.win 5).cut (grid0.coords t0_15) ((dats m 0 c).after 5 t0_15) = _
  rw [after0_5, show (outsAt0 m c t0_15.val t0_15.isLt).1 = b c from hb c]
  have hz' : (fun a => win0_5.index t0_15 a * main_v5.ty.shape.size a) = fun _ => 0 := funext fun a => by fin_cases a <;> decide
  exact (Memref.read_access_unit_zero (Elt F) main_v5 hz' (fun a => by rw [congrFun hz' a]; simp) (b c)).symm

/-- So the [1,1] result array ends holding `b`: point 15's block is the whole array. -/
theorem final (b : Dev nD → Vec F S1x1 .f32)
    (hb : ∀ c, (outsAt0 m c 15 (by rw [show cfg0.N = 16 from N_0]; decide)).1 = b c) (c : Dev nD) :
    (dats m 0 c).arrAt 5 cfg0.N = (b c : Buf (Elt F) ((c : Thread nD τ).loc main_v5)) :=
  (dats m 0 c).arrAt_eq_of_cover 5 (b c) (flushed_eq m b hb c) fun i =>
    ⟨t0_15, (flush0_5 t0_15).mpr rfl, by
      show i ∈ ((View.whole main_v5).slice (win0_5.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 1 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 1 from by decide +kernel]; omega⟩

/-- The [1,1] shape has one index, (0, 0). -/
theorem idx_S1x1 (k : S1x1.Idx) : k = ValueIdx.ix2 (0 : Fin 1) (0 : Fin 1) := by
  funext a
  have h0 : (k 0 : Nat) < 1 := (k 0).isLt
  have h1 : (k 1 : Nat) < 1 := (k 1).isLt
  match a with
  | ⟨0, _⟩ => exact Fin.ext (by show (k 0 : Nat) = 0; omega)
  | ⟨1, _⟩ => exact Fin.ext (by show (k 1 : Nat) = 0; omega)

/-- The host reshape after the region reads the scalar result off the [1,1] array's one entry: the array is the
    pipeline's output, which ends at `b`, and a reshape [1,1] → [] reads entry (0, 0). -/
theorem tail_v6 (b : Dev nD → Vec F S1x1 .f32)
    (hb : ∀ c, (outsAt0 m c 15 (by rw [show cfg0.N = 16 from N_0]; decide)).1 = b c) (c : Dev nD) :
    Pipeline.afterTail₀ cfgs (dats m) 0 (V0 m) [hostOps1] c main_v6
      = (fun _ => b c (ValueIdx.ix2 (0 : Fin 1) (0 : Fin 1))) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = (b c : Buf (Elt F) ((c : Thread nD τ).loc main_v5)) :=
    (Pipeline.withArrays_arr spec0 launch0.win.arr_inj c _ _ 5).trans (final m b hb c)
  rw [e]
  funext i
  show shapeCast S_ (b c) shapeCasts_S1x1_S_ i = _
  unfold shapeCast
  exact congrArg (b c) (idx_S1x1 _)

/-- If point 15 leaves `b` in the output's staging buffer, every fair execution ends with the scalar result at
    `b`'s one entry and the arguments unchanged. -/
theorem run_of_last (b : Dev nD → Vec F S1x1 .f32)
    (hb : ∀ c, (outsAt0 m c 15 (by rw [show cfg0.N = 16 from N_0]; decide)).1 = b c) :
    θ_run defs (onTc (τ := τ) (main (F := F))) ⟨m, fun _ => 0, ρ⟩ (fun r => ∀ c : Dev nD,
      r.2.mem ((c.tc : Thread nD τ).loc main_v6) = (fun _ => b c (ValueIdx.ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (tail_v6 m b hb c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KRun

end
-- ==== Proof.RefValue.lean ====
/-
  The reference's result, read as the loss of the spec over the three-quotient distance.

  The reference computes, for each of the three fields flattened to 512 rows of 16384 features, the row sums of
  squares (a sum over the features from the zero word), the gram matrix (a contraction over the features), and the
  entry `(sq i + sq j − 2 · gram i j) / 16384` through the two keepdims broadcasts `sq[:, None]`, `sq[None, :]`; adds
  the three matrices; compares the labels broadcast the same two ways; takes the distance where the labels agree and
  the hinge `max (1 − d) 0` where they do not; keeps the entries strictly above the diagonal (the bit
  `¬ (row + 0 ≥ column)`, i.e. `row < column`); sums everything from the zero word and divides by the number of pairs.
  Each stage is read here at an index `(i, j)` written with `ix2`, for ANY flattened fields `e`, `a`, `c` (the fields
  are never read at an index: they stay opaque), and the total is turned into the double sum over rows and columns.
-/
import proofs.«112074_j40226663694515_1_alg».proof.Proof.Gen.ReferenceIdeal.Read
import proofs.«112074_j40226663694515_1_alg».proof.Proof.Spec
import proofs.«112074_j40226663694515_1_alg».proof.Proof.LibKeepdims
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx

/-! ## The stages, as functions of the flattened fields and the labels -/

/-- A vector laid along the rows of the square: `v[:, None]`, constant along each row. -/
abbrev colT {α : Type} (v : S512.Idx → α) : S512x512.Idx → α :=
  broadcastInDim S512x512 ![0, 1] bcast_S512x1_S512x512_0_1 (broadcastInDim S512x1 ![0] bcast_S512_S512x1_0 v)
/-- A vector laid along the columns of the square: `v[None, :]`, constant down each column. -/
abbrev rowT {α : Type} (v : S512.Idx → α) : S512x512.Idx → α :=
  broadcastInDim S512x512 ![0, 1] bcast_S1x512_S512x512_0_1 (broadcastInDim S1x512 ![1] bcast_S512_S1x512_1 v)
/-- A scalar spread over the square. -/
abbrev splatT {α : Type} (s : S_.Idx → α) : S512x512.Idx → α :=
  broadcastInDim S512x512 ![] bcast_S_S512x512 s

/-- The row sums of squares of a field. -/
abbrev sqT (x : FVec Ideal S512x16384 .f32) : FVec Ideal S512 .f32 :=
  Host.reduceAdd (F := Ideal) (mulf x x) (constant (F := Ideal) S_ .f32 0x00000000#32) reducesTo_S512x16384_S512_d1 h_S_
/-- The gram matrix of a field's rows. -/
abbrev gramT (x : FVec Ideal S512x16384 .f32) : FVec Ideal S512x512 .f32 :=
  Host.dotGeneral (F := Ideal) dot_S512x16384_S512x16384_S512x512_1_1_0_0_n_n none x x
/-- One field's matrix of mean squared differences of rows. -/
abbrev fdT (x : FVec Ideal S512x16384 .f32) : FVec Ideal S512x512 .f32 :=
  Host.divf (F := Ideal) (subf (addf (colT (sqT x)) (rowT (sqT x)))
      (mulf (splatT (constant (F := Ideal) S_ .f32 0x40000000#32)) (gramT x)))
    (splatT (constant (F := Ideal) S_ .f32 0x46800000#32))
/-- The three fields' matrices, added. -/
abbrev distT (e a c : FVec Ideal S512x16384 .f32) : FVec Ideal S512x512 .f32 := addf (addf (fdT e) (fdT a)) (fdT c)
/-- The bit "the labels of row and column agree". -/
abbrev eqT (t : IVec S512 32) : IVec S512x512 1 := cmpi .eq (colT t) (rowT t)
/-- The distance where the labels agree, the hinge where they do not. -/
abbrev pairT (e a c : FVec Ideal S512x16384 .f32) (t : IVec S512 32) : FVec Ideal S512x512 .f32 :=
  select (eqT t) (distT e a c)
    (maximumf (subf (splatT (constant (F := Ideal) S_ .f32 0x3F800000#32)) (distT e a c)) (splatT (constant (F := Ideal) S_ .f32 0x00000000#32)))
/-- The bit "strictly above the diagonal": not (row + 0 ≥ column). -/
abbrev upperT : IVec S512x512 1 :=
  select (cmpi .sge (addi (iotaInDim S512x512 32 0) (splatT (constantI S_ 32 0#32))) (iotaInDim S512x512 32 1))
    (splatT (constantI S_ 1 0#1)) (splatT (constantI S_ 1 1#1))
/-- The per-pair terms kept above the diagonal, zero elsewhere. -/
abbrev maskedT (e a c : FVec Ideal S512x16384 .f32) (t : IVec S512 32) : FVec Ideal S512x512 .f32 :=
  select upperT (pairT e a c t) (splatT (id (constant (F := Ideal) S_ .f32 0x00000000#32)))
/-- The total over the square, divided by the number of pairs. -/
abbrev resT (e a c : FVec Ideal S512x16384 .f32) (t : IVec S512 32) : FVec Ideal S_ .f32 :=
  Host.divf (F := Ideal) (Host.reduceAdd (F := Ideal) (maskedT e a c t) (constant (F := Ideal) S_ .f32 0x00000000#32) reducesTo_S512x512_S_d0_1 h_S_)
    (constant (F := Ideal) S_ .f32 0x47FF8000#32)

/-! ## The broadcasts at an index -/

/-- `v[:, None]` at `(i, j)` is `v i`. -/
theorem colT_apply {α : Type} (v : S512.Idx → α) (i j : Fin 512) : colT v (ix2 i j) = v (ix1 i) := by
  show broadcastInDim S512x512 ![0, 1] bcast_S512x1_S512x512_0_1 (broadcastInDim S512x1 ![0] bcast_S512_S512x1_0 v) (ix2 i j) = _
  rw [broadcastInDim_apply _ bcast_S512x1_S512x512_0_1 _ (ix2 i j) (ix2 i (0 : Fin 1)) (fun a => match a with
    | ⟨0, _⟩ => by show i.val = if (512 : Nat) = 1 then 0 else i.val; rw [if_neg (by decide)]
    | ⟨1, _⟩ => by show 0 = if (1 : Nat) = 1 then 0 else j.val; rw [if_pos rfl])]
  exact broadcastInDim_apply _ bcast_S512_S512x1_0 v (ix2 i (0 : Fin 1)) (ix1 i) (fun a => match a with
    | ⟨0, _⟩ => by show i.val = if (512 : Nat) = 1 then 0 else i.val; rw [if_neg (by decide)])

/-- `v[None, :]` at `(i, j)` is `v j`. -/
theorem rowT_apply {α : Type} (v : S512.Idx → α) (i j : Fin 512) : rowT v (ix2 i j) = v (ix1 j) := by
  show broadcastInDim S512x512 ![0, 1] bcast_S1x512_S512x512_0_1 (broadcastInDim S1x512 ![1] bcast_S512_S1x512_1 v) (ix2 i j) = _
  rw [broadcastInDim_apply _ bcast_S1x512_S512x512_0_1 _ (ix2 i j) (ix2 (0 : Fin 1) j) (fun a => match a with
    | ⟨0, _⟩ => by show 0 = if (1 : Nat) = 1 then 0 else i.val; rw [if_pos rfl]
    | ⟨1, _⟩ => by show j.val = if (512 : Nat) = 1 then 0 else j.val; rw [if_neg (by decide)])]
  exact broadcastInDim_apply _ bcast_S512_S1x512_1 v (ix2 (0 : Fin 1) j) (ix1 j) (fun a => match a with
    | ⟨0, _⟩ => by show j.val = if (512 : Nat) = 1 then 0 else j.val; rw [if_neg (by decide)])

/-- A scalar spread over the square reads the scalar everywhere. -/
theorem splatT_apply {α : Type} (s : S_.Idx → α) (p : S512x512.Idx) : splatT s p = s ix0 :=
  broadcastInDim_apply _ bcast_S_S512x512 s p ix0 (fun a => a.elim0)

/-! ## One field: row sums, gram entries, the mean squared difference -/

/-- The row sum of squares at `i`: the zero word is the neutral `0`, and the sum runs over the features of row `i`. -/
theorem sqT_apply (x : FVec Ideal S512x16384 .f32) (i : Fin 512) : sqT x (ix1 i) = Cert.Loss.rowSq x i := by
  unfold Cert.Loss.rowSq
  show Host.reduceAdd (F := Ideal) (mulf x x) (constant (F := Ideal) S_ .f32 0x00000000#32) reducesTo_S512x16384_S512_d1 h_S_ (ix1 i) = _
  simp only [Host.reduceAdd, Ideal.hostReduceAdd_def]
  rw [Ideal.hostReduceAdd_single reducesTo_S512x16384_S512_d1 (by decide)]
  rw [constant_apply, Ideal.ofBits_zero_f32, zero_add]
  refine Finset.sum_congr rfl fun k _ => ?_
  exact congrArg (mulf x x) (funext fun a => Fin.ext (by match a with | ⟨0, _⟩ => rfl | ⟨1, _⟩ => rfl))

/-- The gram entry at `(i, j)`: the contraction over the one contracted axis is the sum over the features of the
    products of rows `i` and `j`. -/
theorem gramT_apply (x : FVec Ideal S512x16384 .f32) (i j : Fin 512) : gramT x (ix2 i j) = Cert.Loss.gram x i j := by
  unfold Cert.Loss.gram
  show Host.dotGeneral (F := Ideal) dot_S512x16384_S512x16384_S512x512_1_1_0_0_n_n none x x (ix2 i j) = _
  simp only [Host.dotGeneral]
  rw [Ideal.dotGeneral_apply, ← Equiv.sum_comp (ValueIdx.contrEquiv1 dot_S512x16384_S512x16384_S512x512_1_1_0_0_n_n 16384 rfl rfl).symm]
  refine Finset.sum_congr rfl fun k _ => ?_
  have hk := ValueIdx.contrEquiv1_symm_val dot_S512x16384_S512x16384_S512x512_1_1_0_0_n_n 16384 rfl rfl k
  have el : dot_S512x16384_S512x16384_S512x512_1_1_0_0_n_n.lhsIdx (ix2 i j) ((ValueIdx.contrEquiv1 dot_S512x16384_S512x16384_S512x512_1_1_0_0_n_n 16384 rfl rfl).symm k) = ix2 i k := funext fun a => Fin.ext (by
    match a with
    | ⟨0, _⟩ => exact lhs_main_v3_0 _ _
    | ⟨1, _⟩ => exact (lhs_main_v3_1 _ _).trans hk)
  have er : dot_S512x16384_S512x16384_S512x512_1_1_0_0_n_n.rhsIdx (ix2 i j) ((ValueIdx.contrEquiv1 dot_S512x16384_S512x16384_S512x512_1_1_0_0_n_n 16384 rfl rfl).symm k) = ix2 j k := funext fun a => Fin.ext (by
    match a with
    | ⟨0, _⟩ => exact rhs_main_v3_0 _ _
    | ⟨1, _⟩ => exact (rhs_main_v3_1 _ _).trans hk)
  rw [el, er]

/-- One field's entry at `(i, j)` is its mean squared difference of rows `i` and `j`. -/
theorem fdT_apply (x : FVec Ideal S512x16384 .f32) (i j : Fin 512) : fdT x (ix2 i j) = Cert.Loss.fieldDist x i j := by
  unfold Cert.Loss.fieldDist
  show Ideal.div ((colT (sqT x) (ix2 i j) + rowT (sqT x) (ix2 i j))
      - splatT (constant (F := Ideal) S_ .f32 0x40000000#32) (ix2 i j) * gramT x (ix2 i j))
    (splatT (constant (F := Ideal) S_ .f32 0x46800000#32) (ix2 i j)) = _
  rw [colT_apply, rowT_apply, splatT_apply, splatT_apply, sqT_apply, sqT_apply, gramT_apply]
  rfl

/-- The three fields' entries added are the three-quotient distance. -/
theorem distT_apply (e a c : FVec Ideal S512x16384 .f32) (i j : Fin 512) :
    distT e a c (ix2 i j) = Cert.Loss.distR e a c i j := by
  unfold Cert.Loss.distR
  show (fdT e (ix2 i j) + fdT a (ix2 i j)) + fdT c (ix2 i j) = _
  rw [fdT_apply, fdT_apply, fdT_apply]

/-! ## The two bits -/

/-- The label bit at `(i, j)` compares the labels of `i` and `j`. -/
theorem eqT_apply (t : IVec S512 32) (i j : Fin 512) : eqT t (ix2 i j) = IntOp.cmpi .eq (t (ix1 i)) (t (ix1 j)) := by
  show IntOp.cmpi .eq (colT t (ix2 i j)) (rowT t (ix2 i j)) = _
  rw [colT_apply, rowT_apply]

/-- The triangle bit at `(i, j)` is set exactly when `i < j`: row and column are below 2³¹, so the signed comparison
    of their words is the comparison of the numbers, and adding the zero word changes nothing. -/
theorem upperT_apply (i j : Fin 512) : upperT (ix2 i j) = if i.val < j.val then 1#1 else 0#1 := by
  show Scalar.select (IntOp.cmpi .sge (IntOp.addi (BitVec.ofNat 32 i.val) (splatT (constantI S_ 32 0#32) (ix2 i j))) (BitVec.ofNat 32 j.val))
    (splatT (constantI S_ 1 0#1) (ix2 i j)) (splatT (constantI S_ 1 1#1) (ix2 i j)) = _
  rw [splatT_apply, splatT_apply, splatT_apply]
  show Scalar.select (IntOp.cmpi .sge (BitVec.ofNat 32 i.val + 0#32) (BitVec.ofNat 32 j.val)) 0#1 1#1 = _
  rw [BitVec.add_zero]
  have hi := i.isLt
  have hj := j.isLt
  have ti : (BitVec.ofNat 32 i.val).toNat = i.val := by rw [BitVec.toNat_ofNat]; omega
  have tj : (BitVec.ofNat 32 j.val).toNat = j.val := by rw [BitVec.toNat_ofNat]; omega
  have hsge := Predicate.sge_iff_toNat (a := BitVec.ofNat 32 i.val) (b := BitVec.ofNat 32 j.val) (by rw [ti]; omega) (by rw [tj]; omega)
  rw [ti, tj] at hsge
  by_cases h : i.val < j.val
  · rw [if_pos h]
    have hne : ¬ IntOp.cmpi .sge (BitVec.ofNat 32 i.val) (BitVec.ofNat 32 j.val) = 1#1 := fun hc => by have := hsge.mp hc; omega
    rw [eq_zero_of_ne_one hne, select_zero]
  · rw [if_neg h, hsge.mpr (by omega), select_one]

/-! ## The per-pair term, the total, the result -/

/-- The kept per-pair term at `(i, j)` is the spec's contribution of the pair at the three-quotient distance. -/
theorem maskedT_apply (e a c : FVec Ideal S512x16384 .f32) (t : IVec S512 32) (i j : Fin 512) :
    maskedT e a c t (ix2 i j) = Cert.Loss.perPair t (Cert.Loss.distR e a c i j) i j := by
  unfold Cert.Loss.perPair
  show Scalar.select (upperT (ix2 i j))
      (Scalar.select (eqT t (ix2 i j)) (distT e a c (ix2 i j))
        (max (splatT (constant (F := Ideal) S_ .f32 0x3F800000#32) (ix2 i j) - distT e a c (ix2 i j)) (splatT (constant (F := Ideal) S_ .f32 0x00000000#32) (ix2 i j))))
      (splatT (id (constant (F := Ideal) S_ .f32 0x00000000#32)) (ix2 i j)) = _
  rw [upperT_apply, eqT_apply, distT_apply, splatT_apply, splatT_apply, splatT_apply]
  show Scalar.select (if i.val < j.val then 1#1 else 0#1)
      (Scalar.select (IntOp.cmpi .eq (t (ix1 i)) (t (ix1 j))) (Cert.Loss.distR e a c i j)
        (max (Cert.Loss.one - Cert.Loss.distR e a c i j) (Ideal.ofBits .f32 0x00000000#32)))
      (Ideal.ofBits .f32 0x00000000#32) = _
  rw [Ideal.ofBits_zero_f32]
  by_cases h : i.val < j.val
  · rw [if_pos h, if_pos h, select_one]
    by_cases ht : t (ix1 i) = t (ix1 j)
    · rw [if_pos ht, Predicate.cmpi_eq_iff.mpr ht, select_one]
    · rw [if_neg ht, eq_zero_of_ne_one (fun hc => ht (Predicate.cmpi_eq_iff.mp hc)), select_zero]
  · rw [if_neg h, if_neg h, select_zero]

/-- The reference's last stage, for any flattened fields and labels: the total over the square from the zero word is
    the double sum over rows and columns of the pairs' contributions, and the quotient by the number of pairs is the loss. -/
theorem resT_eq (e a c : FVec Ideal S512x16384 .f32) (t : IVec S512 32) :
    resT e a c t = fun _ => Cert.Loss.loss t (Cert.Loss.distR e a c) := by
  funext p
  unfold Cert.Loss.loss
  show Ideal.div (Host.reduceAdd (F := Ideal) (maskedT e a c t) (constant (F := Ideal) S_ .f32 0x00000000#32) reducesTo_S512x512_S_d0_1 h_S_ p)
    (Ideal.ofBits .f32 0x47FF8000#32) = _
  simp only [Host.reduceAdd, Ideal.hostReduceAdd_def]
  rw [Ideal.hostReduceAdd_total reducesTo_S512x512_S_d0_1 (fun b => b.elim0), constant_apply, Ideal.ofBits_zero_f32, zero_add, sum_idx2]
  simp only [maskedT_apply]

/-- The reference's result, at the ideal instance, is the loss over the sum of the three per-field mean squared differences of the flattened fields. -/
theorem result_eq (m : (ℓ : Loc nD τ sig) → Buf (Elt Ideal) ℓ) (c : Dev nD) :
    Value.res_out0 (F := Ideal) m c
      = fun _ => Cert.Loss.loss (m ((c.tc : Thread nD τ).loc main_arg3))
          (Cert.Loss.distR (shapeCast S512x16384 (m ((c.tc : Thread nD τ).loc main_arg0)) shapeCasts_S512x128x128_S512x16384)
                           (shapeCast S512x16384 (m ((c.tc : Thread nD τ).loc main_arg1)) shapeCasts_S512x128x128_S512x16384)
                           (shapeCast S512x16384 (m ((c.tc : Thread nD τ).loc main_arg2)) shapeCasts_S512x128x128_S512x16384)) := by
  show Value.res_main_v58 (F := Ideal) m c = _
  unfold Value.res_main_v58
  exact resT_eq (shapeCast S512x16384 (m ((c.tc : Thread nD τ).loc main_arg0)) shapeCasts_S512x128x128_S512x16384)
    (shapeCast S512x16384 (m ((c.tc : Thread nD τ).loc main_arg1)) shapeCasts_S512x128x128_S512x16384)
    (shapeCast S512x16384 (m ((c.tc : Thread nD τ).loc main_arg2)) shapeCasts_S512x128x128_S512x16384)
    (m ((c.tc : Thread nD τ).loc main_arg3))

end Cert.ReferenceIdeal.RefValue

end
-- ==== Proof.Finite.lean ====
/-
  From the printed finiteness precondition to "every entry of each field is a real number".

  The precondition is the conjunction, over the three fields, of `all (|x| < +∞)`: each `all` is a reduction by `and`
  of the array of comparisons into a single word, and the claim says the conjunction is `1`. A conjunction of words is
  `1` exactly when both are; a reduction by `and` that is `1` met only `1`s; so at every index `|x| < +∞` holds, with
  `|x| = max x (−x)`. On the extended reals that excludes `x = +∞` (then `|x| = +∞`) and `x = −∞` (then `−x = +∞`), and what is
  left is a real. A reshape reads the same entries under other indices, so it keeps an array real-valued.
-/
import Mathlib.Data.EReal.Basic
import Mathlib.Data.EReal.Operations
import Idealize.ShloMosaic.Lib.ReduceAll
import Idealize.ShloMosaic.Lib.Affine
import Idealize.ShloMosaic.Lib.ValueIdx
import Idealize.ShloMosaic.PureOps.Ideal.Laws
import proofs.«112074_j40226663694515_1_alg».proof.Pre_finite_inputs
import proofs.«112074_j40226663694515_1_alg».proof.Proof.Consts

noncomputable section

namespace Cert.Loss.Finite

open Idealize.ShloMosaic Idealize.ShloMosaic.ValueIdx
open Cert.Pre_finite_inputs

/-- The scalar shape has exactly one index (the empty tuple of coordinates). -/
instance : Subsingleton S_.Idx := ⟨fun a b => funext fun d => d.elim0⟩

/-- `max x (−x) < +∞` on the extended reals leaves only the reals: at `x = +∞` the maximum is `+∞`, and at `x = −∞` it is
`−(−∞) = +∞` as well. -/
theorem real_of_abs_lt_top (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- One `all (|x| < +∞)`: if the reduction by `and` of the comparisons is `1`, every entry of `x` is a real. -/
theorem real_of_all [Facts] (x : FVec Ideal S512x128x128 .f32) (init : IVec S_ 1)
    (h : Host.reduce IntOp.andi
        (cmpf .olt (Host.absf x)
          (broadcastInDim S512x128x128 ![] Facts.bcast_S_S512x128x128 (constant (F := Ideal) S_ .f32 0x7F800000#32)))
        init Facts.reducesTo_S512x128x128_S_d0_1_2 Facts.h_S_ ix0 = 1#1) (i : S512x128x128.Idx) :
    ∃ r : ℝ, x i = (r : EReal) := by
  have h1 := Host.reduce_andi_all _ _ _ _ _ h i
  have h2 : Ideal.cmp .olt (max (x i) (-(x i))) ⊤ = 1#1 := by
    rw [← Consts.ofBits_inf]
    exact h1
  exact real_of_abs_lt_top _ h2

/-- The precondition, read back: each of the three fields is real-valued. -/
theorem real_of_pre [Cert.Pre_finite_inputs.Facts] (x0 x1 x2 : FVec Ideal Cert.Pre_finite_inputs.S512x128x128 .f32)
    (t : IVec Cert.Pre_finite_inputs.S512 32)
    (h : Cert.Pre_finite_inputs.fn (F := Ideal) x0 x1 x2 t = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all x0 _ h0', real_of_all x1 _ h1, real_of_all x2 _ h2⟩

/-- A reshape only re-indexes: a real-valued array stays real-valued. -/
theorem shapeCast_real {s t : Shape} (x : s.Idx → EReal) (hx : ∀ i, ∃ r : ℝ, x i = (r : EReal)) (hc : s.ShapeCasts t) :
    ∀ j, ∃ r : ℝ, shapeCast t x hc j = (r : EReal) :=
  fun j => hx (Shape.reshapeEquiv hc j)

end Cert.Loss.Finite

end
-- ==== Proof.lean ====
/-
  A structural contrastive loss over three fields of 512 samples and 512 integer labels, computed two ways, is one
  number on finite inputs.

  Both programs flatten each field to [512, 16384]. The reference forms, per field, the pairwise mean squared
  differences (rowSq i + rowSq j − 2·gram i j) / 16384 and ADDS the three matrices. The kernel streams the features in
  sixteen tiles of 1024, accumulating across the grid the three fields' gram blocks into one [512,512] accumulator and
  their row sums of squares into another, and at the last tile takes ONE quotient of the combination. Over the real
  numbers the two distances agree (the quotient and the factor 2 distribute over the three terms); the precondition
  makes every entry a real. From the distance on, both apply the same per-pair rule (the distance for equal labels,
  the hinge max(1 − d, 0) otherwise), keep the pairs i < j, total them and divide by 130816.

    • The kernel's side: KernelPieces (what one grid step leaves), KernelFold (the accumulators after each step, by
      induction; the last step's output is the loss over the one-quotient distance), KernelRun (from the last step's
      output to the program's result), Payloads (each store's payload at an index).
    • The reference's side: RefValue (its result is the loss over the three-quotient distance).
    • Algebra: the two distances agree on real-valued fields. Finite: the precondition gives real-valued fields.
    • The three frames are the generated ones (the reference's is its generated run with the result dropped), and
      the idealization rewrote nothing.
-/
import proofs.«112074_j40226663694515_1_alg».proof.Defs
import proofs.«112074_j40226663694515_1_alg».proof.Proof.Gen.Kernel
import proofs.«112074_j40226663694515_1_alg».proof.Proof.Gen.Kernel.Frame
import proofs.«112074_j40226663694515_1_alg».proof.Proof.Gen.KernelIdeal
import proofs.«112074_j40226663694515_1_alg».proof.Proof.Gen.KernelIdeal.Frame
import proofs.«112074_j40226663694515_1_alg».proof.Proof.Gen.ReferenceIdeal
import proofs.«112074_j40226663694515_1_alg».proof.Proof.Gen.ReferenceIdeal.Run
import proofs.«112074_j40226663694515_1_alg».proof.Proof.Gen.Pre_finite_inputs
import proofs.«112074_j40226663694515_1_alg».proof.Proof.KernelFold
import proofs.«112074_j40226663694515_1_alg».proof.Proof.KernelRun
import proofs.«112074_j40226663694515_1_alg».proof.Proof.RefValue
import proofs.«112074_j40226663694515_1_alg».proof.Proof.Algebra
import proofs.«112074_j40226663694515_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result is the loss over the one-quotient distance of the flattened fields (the
    fold over the grid), the reference's the loss over the three-quotient distance of arguments that agree; on the
    real-valued fields the precondition gives, the two distances are equal. -/
theorem algebraic : Cert.algebraic_KernelIdeal_ReferenceIdeal := by
  intro m ρ m' ρ' hpre hagree
  have h15 : 15 < Cert.KernelIdeal.cfg0.N := by
    rw [show Cert.KernelIdeal.cfg0.N = 16 from Cert.KernelIdeal.Gen.N_0]; decide
  refine ⟨fun c => fun _ => Cert.Loss.loss (m ((c.tc : Thread Cert.KernelIdeal.nD Cert.KernelIdeal.τ).loc Cert.KernelIdeal.main_arg3))
      (Cert.Loss.distR (Cert.KernelIdeal.Fold.fld0 m c) (Cert.KernelIdeal.Fold.fld1 m c) (Cert.KernelIdeal.Fold.fld2 m c)), ?_, ?_⟩
  · refine (θ_run Cert.KernelIdeal.defs _ _).mono (fun r h c => ⟨(h c).1.trans ?_, (h c).2⟩)
      (Cert.KernelIdeal.KRun.run_of_last m ρ (fun c => (Cert.KernelIdeal.Gen.outsAt0 m c 15 h15).1) (fun c => rfl))
    obtain ⟨r0, r1, r2⟩ := Cert.Loss.Finite.real_of_pre _ _ _ _ (hpre c)
    funext o
    rw [Cert.KernelIdeal.Fold.last_out m c h15]
    refine Cert.Loss.lossK_eq_lossR _ _ _ _ ?_ ?_ ?_
    · rw [Cert.KernelIdeal.Fold.fld0_eq]; exact Cert.Loss.Finite.shapeCast_real _ r0 _
    · rw [Cert.KernelIdeal.Fold.fld1_eq]; exact Cert.Loss.Finite.shapeCast_real _ r1 _
    · rw [Cert.KernelIdeal.Fold.fld2_eq]; exact Cert.Loss.Finite.shapeCast_real _ r2 _
  · refine (θ_run Cert.ReferenceIdeal.defs _ _).mono (fun r h c => ⟨(h c).1.trans ?_, (h c).2⟩)
      (Cert.ReferenceIdeal.Value.run (F := Ideal) m' ρ')
    rw [show Cert.ReferenceIdeal.Value.res_main_v58 m' c = Cert.ReferenceIdeal.Value.res_out0 m' c from rfl,
      Cert.ReferenceIdeal.RefValue.result_eq, (hagree c).1, (hagree c).2.1, (hagree c).2.2.1, (hagree c).2.2.2]
    beta_reduce
    rw [Cert.KernelIdeal.Fold.fld0_eq, Cert.KernelIdeal.Fold.fld1_eq, Cert.KernelIdeal.Fold.fld2_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
